-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16384x3 : Shape := ⟨3, ![16, 16384, 3]⟩
abbrev S16x121x256 : Shape := ⟨3, ![16, 121, 256]⟩
abbrev S16x257x256 : Shape := ⟨3, ![16, 257, 256]⟩
abbrev S16x257x1 : Shape := ⟨3, ![16, 257, 1]⟩
abbrev S60x3 : Shape := ⟨2, ![60, 3]⟩
abbrev S_ : Shape := ⟨0, ![]⟩

class Facts : Prop where
  bcast_S_S16x16384x3 : S_.BroadcastsInDim S16x16384x3 (![] : Fin 0 → Fin S16x16384x3.rank)
  reducesTo_S16x16384x3_S_d0_1_2 : S16x16384x3.ReducesTo [0, 1, 2] S_
  h_S_ : 0 < S_.numel
  bcast_S_S16x121x256 : S_.BroadcastsInDim S16x121x256 (![] : Fin 0 → Fin S16x121x256.rank)
  reducesTo_S16x121x256_S_d0_1_2 : S16x121x256.ReducesTo [0, 1, 2] S_
  bcast_S_S16x257x256 : S_.BroadcastsInDim S16x257x256 (![] : Fin 0 → Fin S16x257x256.rank)
  reducesTo_S16x257x256_S_d0_1_2 : S16x257x256.ReducesTo [0, 1, 2] S_
  bcast_S_S16x257x1 : S_.BroadcastsInDim S16x257x1 (![] : Fin 0 → Fin S16x257x1.rank)
  reducesTo_S16x257x1_S_d0_1_2 : S16x257x1.ReducesTo [0, 1, 2] S_
  bcast_S_S60x3 : S_.BroadcastsInDim S60x3 (![] : Fin 0 → Fin S60x3.rank)
  reducesTo_S60x3_S_d0_1 : S60x3.ReducesTo [0, 1] S_

variable [Facts]

def fn_part2 {F : FTy → Type} [FloatOps F] (main_arg7 : FVec F S60x3 .f32) (main_v33 : IVec S_ 1) : IVec S_ 1 :=
  let main_v34 : FVec F S60x3 .f32 := Host.absf main_arg7
  let main_cst_12 : FVec F S_ .f32 := constant S_ .f32 0x7F800000#32
  let main_v35 : FVec F S60x3 .f32 := broadcastInDim S60x3 ![] bcast_S_S60x3 main_cst_12
  let main_v36 : IVec S60x3 1 := cmpf .olt main_v34 main_v35
  let main_c_13 : IVec S_ 1 := constantI S_ 1 1#1
  let main_v37 : IVec S_ 1 := (fun x v => Host.reduce IntOp.andi x v reducesTo_S60x3_S_d0_1 h_S_) main_v36 main_c_13
  let main_v38 : IVec S_ 1 := andi main_v33 main_v37
  main_v38

def fn_part1 {F : FTy → Type} [FloatOps F] (main_arg4 : FVec F S16x257x256 .f32) (main_arg5 : FVec F S16x257x256 .f32) (main_arg6 : FVec F S16x257x1 .f32) (main_arg7 : FVec F S60x3 .f32) (main_v13 : IVec S_ 1) (main_v16 : IVec S16x257x256 1) : IVec S_ 1 :=
  let main_c_5 : IVec S_ 1 := constantI S_ 1 1#1
  let main_v17 : IVec S_ 1 := (fun x v => Host.reduce IntOp.andi x v reducesTo_S16x257x256_S_d0_1_2 h_S_) main_v16 main_c_5
  let main_v18 : IVec S_ 1 := andi main_v13 main_v17
  let main_v19 : FVec F S16x257x256 .f32 := Host.absf main_arg4
  let main_cst_6 : FVec F S_ .f32 := constant S_ .f32 0x7F800000#32
  let main_v20 : FVec F S16x257x256 .f32 := broadcastInDim S16x257x256 ![] bcast_S_S16x257x256 main_cst_6
  let main_v21 : IVec S16x257x256 1 := cmpf .olt main_v19 main_v20
  let main_c_7 : IVec S_ 1 := constantI S_ 1 1#1
  let main_v22 : IVec S_ 1 := (fun x v => Host.reduce IntOp.andi x v reducesTo_S16x257x256_S_d0_1_2 h_S_) main_v21 main_c_7
  let main_v23 : IVec S_ 1 := andi main_v18 main_v22
  let main_v24 : FVec F S16x257x256 .f32 := Host.absf main_arg5
  let main_cst_8 : FVec F S_ .f32 := constant S_ .f32 0x7F800000#32
  let main_v25 : FVec F S16x257x256 .f32 := broadcastInDim S16x257x256 ![] bcast_S_S16x257x256 main_cst_8
  let main_v26 : IVec S16x257x256 1 := cmpf .olt main_v24 main_v25
  let main_c_9 : IVec S_ 1 := constantI S_ 1 1#1
  let main_v27 : IVec S_ 1 := (fun x v => Host.reduce IntOp.andi x v reducesTo_S16x257x256_S_d0_1_2 h_S_) main_v26 main_c_9
  let main_v28 : IVec S_ 1 := andi main_v23 main_v27
  let main_v29 : FVec F S16x257x1 .f32 := Host.absf main_arg6
  let main_cst_10 : FVec F S_ .f32 := constant S_ .f32 0x7F800000#32
  let main_v30 : FVec F S16x257x1 .f32 := broadcastInDim S16x257x1 ![] bcast_S_S16x257x1 main_cst_10
  let main_v31 : IVec S16x257x1 1 := cmpf .olt main_v29 main_v30
  let main_c_11 : IVec S_ 1 := constantI S_ 1 1#1
  let main_v32 : IVec S_ 1 := (fun x v => Host.reduce IntOp.andi x v reducesTo_S16x257x1_S_d0_1_2 h_S_) main_v31 main_c_11
  let main_v33 : IVec S_ 1 := andi main_v28 main_v32
  fn_part2 (F := F) main_arg7 main_v33

def fn {F : FTy → Type} [FloatOps F] (main_arg0 : FVec F S16x16384x3 .f32) (main_arg1 : FVec F S16x121x256 .f32) (main_arg2 : FVec F S16x257x256 .f32) (main_arg3 : FVec F S16x257x256 .f32) (main_arg4 : FVec F S16x257x256 .f32) (main_arg5 : FVec F S16x257x256 .f32) (main_arg6 : FVec F S16x257x1 .f32) (main_arg7 : FVec F S60x3 .f32) : IVec S_ 1 :=
  let main_v0 : FVec F S16x16384x3 .f32 := Host.absf main_arg0
  let main_cst : FVec F S_ .f32 := constant S_ .f32 0x7F800000#32
  let main_v1 : FVec F S16x16384x3 .f32 := broadcastInDim S16x16384x3 ![] bcast_S_S16x16384x3 main_cst
  let main_v2 : IVec S16x16384x3 1 := cmpf .olt main_v0 main_v1
  let main_c : IVec S_ 1 := constantI S_ 1 1#1
  let main_v3 : IVec S_ 1 := (fun x v => Host.reduce IntOp.andi x v reducesTo_S16x16384x3_S_d0_1_2 h_S_) main_v2 main_c
  let main_v4 : FVec F S16x121x256 .f32 := Host.absf main_arg1
  let main_cst_0 : FVec F S_ .f32 := constant S_ .f32 0x7F800000#32
  let main_v5 : FVec F S16x121x256 .f32 := broadcastInDim S16x121x256 ![] bcast_S_S16x121x256 main_cst_0
  let main_v6 : IVec S16x121x256 1 := cmpf .olt main_v4 main_v5
  let main_c_1 : IVec S_ 1 := constantI S_ 1 1#1
  let main_v7 : IVec S_ 1 := (fun x v => Host.reduce IntOp.andi x v reducesTo_S16x121x256_S_d0_1_2 h_S_) main_v6 main_c_1
  let main_v8 : IVec S_ 1 := andi main_v3 main_v7
  let main_v9 : FVec F S16x257x256 .f32 := Host.absf main_arg2
  let main_cst_2 : FVec F S_ .f32 := constant S_ .f32 0x7F800000#32
  let main_v10 : FVec F S16x257x256 .f32 := broadcastInDim S16x257x256 ![] bcast_S_S16x257x256 main_cst_2
  let main_v11 : IVec S16x257x256 1 := cmpf .olt main_v9 main_v10
  let main_c_3 : IVec S_ 1 := constantI S_ 1 1#1
  let main_v12 : IVec S_ 1 := (fun x v => Host.reduce IntOp.andi x v reducesTo_S16x257x256_S_d0_1_2 h_S_) main_v11 main_c_3
  let main_v13 : IVec S_ 1 := andi main_v8 main_v12
  let main_v14 : FVec F S16x257x256 .f32 := Host.absf main_arg3
  let main_cst_4 : FVec F S_ .f32 := constant S_ .f32 0x7F800000#32
  let main_v15 : FVec F S16x257x256 .f32 := broadcastInDim S16x257x256 ![] bcast_S_S16x257x256 main_cst_4
  let main_v16 : IVec S16x257x256 1 := cmpf .olt main_v14 main_v15
  fn_part1 (F := F) main_arg4 main_arg5 main_arg6 main_arg7 main_v13 main_v16
-- ==== Kernel.lean ====
abbrev S16x16384x3 : Shape := ⟨3, ![16, 16384, 3]⟩
abbrev S16x121x256 : Shape := ⟨3, ![16, 121, 256]⟩
abbrev S16x257x256 : Shape := ⟨3, ![16, 257, 256]⟩
abbrev S16x257x1 : Shape := ⟨3, ![16, 257, 1]⟩
abbrev S60x3 : Shape := ⟨2, ![60, 3]⟩
abbrev S_ : Shape := ⟨0, ![]⟩
abbrev S3x60 : Shape := ⟨2, ![3, 60]⟩
abbrev S16x16384x1 : Shape := ⟨3, ![16, 16384, 1]⟩
abbrev S1x2048x3 : Shape := ⟨3, ![1, 2048, 3]⟩
abbrev S1x121x256 : Shape := ⟨3, ![1, 121, 256]⟩
abbrev S1x257x256 : Shape := ⟨3, ![1, 257, 256]⟩
abbrev S1x257x1 : Shape := ⟨3, ![1, 257, 1]⟩
abbrev S1x2048x1 : Shape := ⟨3, ![1, 2048, 1]⟩
abbrev S2048x3 : Shape := ⟨2, ![2048, 3]⟩
abbrev S2048x1 : Shape := ⟨2, ![2048, 1]⟩
abbrev S1x60 : Shape := ⟨2, ![1, 60]⟩
abbrev S2048x60 : Shape := ⟨2, ![2048, 60]⟩
abbrev S2048x120 : Shape := ⟨2, ![2048, 120]⟩
abbrev S121x256 : Shape := ⟨2, ![121, 256]⟩
abbrev S120x256 : Shape := ⟨2, ![120, 256]⟩
abbrev S1x256 : Shape := ⟨2, ![1, 256]⟩
abbrev S2048x256 : Shape := ⟨2, ![2048, 256]⟩
abbrev S257x256 : Shape := ⟨2, ![257, 256]⟩
abbrev S256x256 : Shape := ⟨2, ![256, 256]⟩
abbrev S257x1 : Shape := ⟨2, ![257, 1]⟩
abbrev S256x1 : Shape := ⟨2, ![256, 1]⟩
abbrev S1x1 : Shape := ⟨2, ![1, 1]⟩

abbrev nBuf : Space → Nat
  | .hbm => 13
  | .vmem => 17
  | .smem => 0
  | _ => 0

abbrev bufTy : (tb : Table) → Fin (tcTables nBuf tb) → BufTy
  | .hbm, ⟨0, _⟩ => ⟨S16x16384x3, .f32⟩
  | .hbm, ⟨1, _⟩ => ⟨S16x121x256, .f32⟩
  | .hbm, ⟨2, _⟩ => ⟨S16x257x256, .f32⟩
  | .hbm, ⟨3, _⟩ => ⟨S16x257x256, .f32⟩
  | .hbm, ⟨4, _⟩ => ⟨S16x257x256, .f32⟩
  | .hbm, ⟨5, _⟩ => ⟨S16x257x256, .f32⟩
  | .hbm, ⟨6, _⟩ => ⟨S16x257x1, .f32⟩
  | .hbm, ⟨7, _⟩ => ⟨S60x3, .f32⟩
  | .hbm, ⟨8, _⟩ => ⟨S_, .f32⟩
  | .hbm, ⟨9, _⟩ => ⟨S60x3, .f32⟩
  | .hbm, ⟨10, _⟩ => ⟨S60x3, .f32⟩
  | .hbm, ⟨11, _⟩ => ⟨S3x60, .f32⟩
  | .hbm, ⟨12, _⟩ => ⟨S16x16384x1, .f32⟩
  | .local _ .vmem, ⟨0, _⟩ => ⟨S1x2048x3, .f32⟩
  | .local _ .vmem, ⟨1, _⟩ => ⟨S1x2048x3, .f32⟩
  | .local _ .vmem, ⟨2, _⟩ => ⟨S3x60, .f32⟩
  | .local _ .vmem, ⟨3, _⟩ => ⟨S1x121x256, .f32⟩
  | .local _ .vmem, ⟨4, _⟩ => ⟨S1x121x256, .f32⟩
  | .local _ .vmem, ⟨5, _⟩ => ⟨S1x257x256, .f32⟩
  | .local _ .vmem, ⟨6, _⟩ => ⟨S1x257x256, .f32⟩
  | .local _ .vmem, ⟨7, _⟩ => ⟨S1x257x256, .f32⟩
  | .local _ .vmem, ⟨8, _⟩ => ⟨S1x257x256, .f32⟩
  | .local _ .vmem, ⟨9, _⟩ => ⟨S1x257x256, .f32⟩
  | .local _ .vmem, ⟨10, _⟩ => ⟨S1x257x256, .f32⟩
  | .local _ .vmem, ⟨11, _⟩ => ⟨S1x257x256, .f32⟩
  | .local _ .vmem, ⟨12, _⟩ => ⟨S1x257x256, .f32⟩
  | .local _ .vmem, ⟨13, _⟩ => ⟨S1x257x1, .f32⟩
  | .local _ .vmem, ⟨14, _⟩ => ⟨S1x257x1, .f32⟩
  | .local _ .vmem, ⟨15, _⟩ => ⟨S1x2048x1, .f32⟩
  | .local _ .vmem, ⟨16, _⟩ => ⟨S1x2048x1, .f32⟩
  | _, _ => ⟨S16x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x60 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x121x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x257x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x257x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x257x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x257x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x257x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x2048x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bcast_S_S60x3 : S_.BroadcastsInDim S60x3 (![] : Fin 0 → Fin S60x3.rank)
  transposes_S60x3_S3x60_1_0 : S60x3.Transposes [1, 0] S3x60
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S3x60_S3x60_0_0 : ∀ a, (![0, 0] : Fin 2 → Nat) a + S3x60.size a ≤ S3x60.size a
  h_S3x60 : 0 < S3x60.numel
  shapeCasts_S3x60_S3x60 : S3x60.ShapeCasts S3x60
  slices_S2048x3_o0_0_S2048x1 : S2048x3.Slices ![0, 0] S2048x1
  slices_S3x60_o0_0_S1x60 : S3x60.Slices ![0, 0] S1x60
  broadcasts_S2048x1_S2048x60 : S2048x1.Broadcasts S2048x60
  broadcasts_S1x60_S2048x60 : S1x60.Broadcasts S2048x60
  slices_S2048x3_o0_1_S2048x1 : S2048x3.Slices ![0, 1] S2048x1
  slices_S3x60_o1_0_S1x60 : S3x60.Slices ![1, 0] S1x60
  slices_S2048x3_o0_2_S2048x1 : S2048x3.Slices ![0, 2] S2048x1
  slices_S3x60_o2_0_S1x60 : S3x60.Slices ![2, 0] S1x60
  concatenates_S2048x60_S2048x60_S2048x120_d1 : Shape.Concatenates [S2048x60, S2048x60] S2048x120 1
  inb_S1x121x256_S1x121x256_0_0_0 : ∀ a, (![0, 0, 0] : Fin 3 → Nat) a + S1x121x256.size a ≤ S1x121x256.size a
  h_S1x121x256 : 0 < S1x121x256.numel
  shapeCasts_S1x121x256_S121x256 : S1x121x256.ShapeCasts S121x256
  slices_S121x256_o0_0_S120x256 : S121x256.Slices ![0, 0] S120x256
  bitsLt_bf16_f32 : FTy.bits .bf16 < FTy.bits .f32
  slices_S121x256_o120_0_S1x256 : S121x256.Slices ![120, 0] S1x256
  broadcasts_S1x256_S2048x256 : S1x256.Broadcasts S2048x256
  inb_S1x257x256_S1x257x256_0_0_0 : ∀ a, (![0, 0, 0] : Fin 3 → Nat) a + S1x257x256.size a ≤ S1x257x256.size a
  h_S1x257x256 : 0 < S1x257x256.numel
  shapeCasts_S1x257x256_S257x256 : S1x257x256.ShapeCasts S257x256
  slices_S257x256_o0_0_S256x256 : S257x256.Slices ![0, 0] S256x256
  slices_S257x256_o256_0_S1x256 : S257x256.Slices ![256, 0] S1x256
  inb_S1x257x1_S1x257x1_0_0_0 : ∀ a, (![0, 0, 0] : Fin 3 → Nat) a + S1x257x1.size a ≤ S1x257x1.size a
  h_S1x257x1 : 0 < S1x257x1.numel
  shapeCasts_S1x257x1_S257x1 : S1x257x1.ShapeCasts S257x1
  slices_S257x1_o0_0_S256x1 : S257x1.Slices ![0, 0] S256x1
  slices_S257x1_o256_0_S1x1 : S257x1.Slices ![256, 0] S1x1
  broadcasts_S1x1_S2048x1 : S1x1.Broadcasts S2048x1
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  shapeCasts_S2048x1_S1x2048x1 : S2048x1.ShapeCasts S1x2048x1
  dot_S2048x120_S120x256_S2048x256_1_0_0_1_n_n_wf : DotDims.WF S2048x120 S120x256 S2048x256 [1] [0] [0] [1] [] []
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S16x16384x3.size a
  hwx0_0 : ∀ i : grid0.Coords, EltTy.bits .f32 = 32 ∨ (Rect.block (s := S16x16384x3) S1x2048x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x60.size a ≤ S3x60.size a
  hwx0_1 : ∀ i : grid0.Coords, EltTy.bits .f32 = 32 ∨ (Rect.block (s := S3x60) S3x60.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x121x256.size a ≤ S16x121x256.size a
  hwx0_2 : ∀ i : grid0.Coords, EltTy.bits .f32 = 32 ∨ (Rect.block (s := S16x121x256) S1x121x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x257x256.size a ≤ S16x257x256.size a
  hwx0_3 : ∀ i : grid0.Coords, EltTy.bits .f32 = 32 ∨ (Rect.block (s := S16x257x256) S1x257x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x257x256.size a ≤ S16x257x256.size a
  hwx0_4 : ∀ i : grid0.Coords, EltTy.bits .f32 = 32 ∨ (Rect.block (s := S16x257x256) S1x257x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x257x256.size a ≤ S16x257x256.size a
  hwx0_5 : ∀ i : grid0.Coords, EltTy.bits .f32 = 32 ∨ (Rect.block (s := S16x257x256) S1x257x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x257x256.size a ≤ S16x257x256.size a
  hwx0_6 : ∀ i : grid0.Coords, EltTy.bits .f32 = 32 ∨ (Rect.block (s := S16x257x256) S1x257x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x257x1.size a ≤ S16x257x1.size a
  hwx0_7 : ∀ i : grid0.Coords, EltTy.bits .f32 = 32 ∨ (Rect.block (s := S16x257x1) S1x257x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x1.size a ≤ S16x16384x1.size a
  hwx0_8 : ∀ i : grid0.Coords, EltTy.bits .f32 = 32 ∨ (Rect.block (s := S16x16384x1) S1x2048x1.size (cc0_transform_8 i) (hinb0_8 i)).WholeWords (EltTy.packing .f32)

variable [Facts₀]

def dot_S2048x120_S120x256_S2048x256_1_0_0_1_n_n : DotDims S2048x120 S120x256 S2048x256 where
  lhsContracting := [1]
  rhsContracting := [0]
  lhsNonContracting := [0]
  rhsNonContracting := [1]
  lhsBatch := []
  rhsBatch := []
  wf := dot_S2048x120_S120x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x60.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x121x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x257x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x257x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x257x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x257x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S1x257x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x2048x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x16384x3 : Shape := ⟨3, ![16, 16384, 3]⟩
abbrev S16x121x256 : Shape := ⟨3, ![16, 121, 256]⟩
abbrev S16x257x256 : Shape := ⟨3, ![16, 257, 256]⟩
abbrev S16x257x1 : Shape := ⟨3, ![16, 257, 1]⟩
abbrev S60x3 : Shape := ⟨2, ![60, 3]⟩
abbrev S_ : Shape := ⟨0, ![]⟩
abbrev S16x16384x60 : Shape := ⟨3, ![16, 16384, 60]⟩
abbrev S16x16384x120 : Shape := ⟨3, ![16, 16384, 120]⟩
abbrev S16x120x256 : Shape := ⟨3, ![16, 120, 256]⟩
abbrev S16x16384x256 : Shape := ⟨3, ![16, 16384, 256]⟩
abbrev S16x1x256 : Shape := ⟨3, ![16, 1, 256]⟩
abbrev S16x256x256 : Shape := ⟨3, ![16, 256, 256]⟩
abbrev S16x256x1 : Shape := ⟨3, ![16, 256, 1]⟩
abbrev S16x16384x1 : Shape := ⟨3, ![16, 16384, 1]⟩
abbrev S16x1x1 : Shape := ⟨3, ![16, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S16x16384x3, .f32⟩
  | .hbm, ⟨1, _⟩ => ⟨S16x121x256, .f32⟩
  | .hbm, ⟨2, _⟩ => ⟨S16x257x256, .f32⟩
  | .hbm, ⟨3, _⟩ => ⟨S16x257x256, .f32⟩
  | .hbm, ⟨4, _⟩ => ⟨S16x257x256, .f32⟩
  | .hbm, ⟨5, _⟩ => ⟨S16x257x256, .f32⟩
  | .hbm, ⟨6, _⟩ => ⟨S16x257x1, .f32⟩
  | .hbm, ⟨7, _⟩ => ⟨S60x3, .f32⟩
  | .hbm, ⟨8, _⟩ => ⟨S_, .f32⟩
  | .hbm, ⟨9, _⟩ => ⟨S60x3, .f32⟩
  | .hbm, ⟨10, _⟩ => ⟨S60x3, .f32⟩
  | .hbm, ⟨11, _⟩ => ⟨S16x16384x60, .f32⟩
  | .hbm, ⟨12, _⟩ => ⟨S16x16384x60, .f32⟩
  | .hbm, ⟨13, _⟩ => ⟨S16x16384x60, .f32⟩
  | .hbm, ⟨14, _⟩ => ⟨S16x16384x120, .f32⟩
  | .hbm, ⟨15, _⟩ => ⟨S16x120x256, .f32⟩
  | .hbm, ⟨16, _⟩ => ⟨S16x16384x256, .f32⟩
  | .hbm, ⟨17, _⟩ => ⟨S16x1x256, .f32⟩
  | .hbm, ⟨18, _⟩ => ⟨S16x16384x256, .f32⟩
  | .hbm, ⟨19, _⟩ => ⟨S16x16384x256, .f32⟩
  | .hbm, ⟨20, _⟩ => ⟨S_, .f32⟩
  | .hbm, ⟨21, _⟩ => ⟨S16x16384x256, .f32⟩
  | .hbm, ⟨22, _⟩ => ⟨S16x16384x256, .f32⟩
  | .hbm, ⟨23, _⟩ => ⟨S16x256x256, .f32⟩
  | .hbm, ⟨24, _⟩ => ⟨S16x16384x256, .f32⟩
  | .hbm, ⟨25, _⟩ => ⟨S16x1x256, .f32⟩
  | .hbm, ⟨26, _⟩ => ⟨S16x16384x256, .f32⟩
  | .hbm, ⟨27, _⟩ => ⟨S16x16384x256, .f32⟩
  | .hbm, ⟨28, _⟩ => ⟨S_, .f32⟩
  | .hbm, ⟨29, _⟩ => ⟨S16x16384x256, .f32⟩
  | .hbm, ⟨30, _⟩ => ⟨S16x16384x256, .f32⟩
  | .hbm, ⟨31, _⟩ => ⟨S16x256x256, .f32⟩
  | .hbm, ⟨32, _⟩ => ⟨S16x16384x256, .f32⟩
  | .hbm, ⟨33, _⟩ => ⟨S16x1x256, .f32⟩
  | .hbm, ⟨34, _⟩ => ⟨S16x16384x256, .f32⟩
  | .hbm, ⟨35, _⟩ => ⟨S16x16384x256, .f32⟩
  | .hbm, ⟨36, _⟩ => ⟨S_, .f32⟩
  | .hbm, ⟨37, _⟩ => ⟨S16x16384x256, .f32⟩
  | .hbm, ⟨38, _⟩ => ⟨S16x16384x256, .f32⟩
  | .hbm, ⟨39, _⟩ => ⟨S16x256x256, .f32⟩
  | .hbm, ⟨40, _⟩ => ⟨S16x16384x256, .f32⟩
  | .hbm, ⟨41, _⟩ => ⟨S16x1x256, .f32⟩
  | .hbm, ⟨42, _⟩ => ⟨S16x16384x256, .f32⟩
  | .hbm, ⟨43, _⟩ => ⟨S16x16384x256, .f32⟩
  | .hbm, ⟨44, _⟩ => ⟨S_, .f32⟩
  | .hbm, ⟨45, _⟩ => ⟨S16x16384x256, .f32⟩
  | .hbm, ⟨46, _⟩ => ⟨S16x16384x256, .f32⟩
  | .hbm, ⟨47, _⟩ => ⟨S16x256x256, .f32⟩
  | .hbm, ⟨48, _⟩ => ⟨S16x16384x256, .f32⟩
  | .hbm, ⟨49, _⟩ => ⟨S16x1x256, .f32⟩
  | .hbm, ⟨50, _⟩ => ⟨S16x16384x256, .f32⟩
  | .hbm, ⟨51, _⟩ => ⟨S16x16384x256, .f32⟩
  | .hbm, ⟨52, _⟩ => ⟨S_, .f32⟩
  | .hbm, ⟨53, _⟩ => ⟨S16x16384x256, .f32⟩
  | .hbm, ⟨54, _⟩ => ⟨S16x16384x256, .f32⟩
  | .hbm, ⟨55, _⟩ => ⟨S16x256x1, .f32⟩
  | .hbm, ⟨56, _⟩ => ⟨S16x16384x1, .f32⟩
  | .hbm, ⟨57, _⟩ => ⟨S16x1x1, .f32⟩
  | .hbm, ⟨58, _⟩ => ⟨S16x16384x1, .f32⟩
  | .hbm, ⟨59, _⟩ => ⟨S16x16384x1, .f32⟩
  | _, _ => ⟨S16x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call1_cst : Ref sig .tc := ⟨.hbm, 28, rfl⟩
abbrev main_call1_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call2_cst : Ref sig .tc := ⟨.hbm, 36, rfl⟩
abbrev main_call2_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call3_cst : Ref sig .tc := ⟨.hbm, 44, rfl⟩
abbrev main_call3_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call4_cst : Ref sig .tc := ⟨.hbm, 52, rfl⟩
abbrev main_call4_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  bcast_S_S60x3 : S_.BroadcastsInDim S60x3 (![] : Fin 0 → Fin S60x3.rank)
  concatenates_S16x16384x60_S16x16384x60_S16x16384x120_d2 : Shape.Concatenates [S16x16384x60, S16x16384x60] S16x16384x120 2
  slices_S16x121x256_S16x120x256_0_0_0 : S16x121x256.Slices ![0, 0, 0] S16x120x256
  slices_S16x121x256_S16x1x256_0_120_0 : S16x121x256.Slices ![0, 120, 0] S16x1x256
  bcast_S16x1x256_S16x16384x256_0_1_2 : S16x1x256.BroadcastsInDim S16x16384x256 (![0, 1, 2] : Fin 3 → Fin S16x16384x256.rank)
  bcast_S_S16x16384x256 : S_.BroadcastsInDim S16x16384x256 (![] : Fin 0 → Fin S16x16384x256.rank)
  slices_S16x257x256_S16x256x256_0_0_0 : S16x257x256.Slices ![0, 0, 0] S16x256x256
  slices_S16x257x256_S16x1x256_0_256_0 : S16x257x256.Slices ![0, 256, 0] S16x1x256
  slices_S16x257x1_S16x256x1_0_0_0 : S16x257x1.Slices ![0, 0, 0] S16x256x1
  slices_S16x257x1_S16x1x1_0_256_0 : S16x257x1.Slices ![0, 256, 0] S16x1x1
  bcast_S16x1x1_S16x16384x1_0_1_2 : S16x1x1.BroadcastsInDim S16x16384x1 (![0, 1, 2] : Fin 3 → Fin S16x16384x1.rank)
  dot_S16x16384x3_S60x3_S16x16384x60_2_1_01_0_n_n_wf : DotDims.WF S16x16384x3 S60x3 S16x16384x60 [2] [1] [0, 1] [0] [] []
  dot_S16x16384x120_S16x120x256_S16x16384x256_2_1_1_2_0_0_wf : DotDims.WF S16x16384x120 S16x120x256 S16x16384x256 [2] [1] [1] [2] [0] [0]
  dot_S16x16384x256_S16x256x256_S16x16384x256_2_1_1_2_0_0_wf : DotDims.WF S16x16384x256 S16x256x256 S16x16384x256 [2] [1] [1] [2] [0] [0]
  dot_S16x16384x256_S16x256x1_S16x16384x1_2_1_1_2_0_0_wf : DotDims.WF S16x16384x256 S16x256x1 S16x16384x1 [2] [1] [1] [2] [0] [0]

variable [Facts₀]

def dot_S16x16384x3_S60x3_S16x16384x60_2_1_01_0_n_n : DotDims S16x16384x3 S60x3 S16x16384x60 where
  lhsContracting := [2]
  rhsContracting := [1]
  lhsNonContracting := [0, 1]
  rhsNonContracting := [0]
  lhsBatch := []
  rhsBatch := []
  wf := dot_S16x16384x3_S60x3_S16x16384x60_2_1_01_0_n_n_wf
def dot_S16x16384x120_S16x120x256_S16x16384x256_2_1_1_2_0_0 : DotDims S16x16384x120 S16x120x256 S16x16384x256 where
  lhsContracting := [2]
  rhsContracting := [1]
  lhsNonContracting := [1]
  rhsNonContracting := [2]
  lhsBatch := [0]
  rhsBatch := [0]
  wf := dot_S16x16384x120_S16x120x256_S16x16384x256_2_1_1_2_0_0_wf
def dot_S16x16384x256_S16x256x256_S16x16384x256_2_1_1_2_0_0 : DotDims S16x16384x256 S16x256x256 S16x16384x256 where
  lhsContracting := [2]
  rhsContracting := [1]
  lhsNonContracting := [1]
  rhsNonContracting := [2]
  lhsBatch := [0]
  rhsBatch := [0]
  wf := dot_S16x16384x256_S16x256x256_S16x16384x256_2_1_1_2_0_0_wf
def dot_S16x16384x256_S16x256x1_S16x16384x1_2_1_1_2_0_0 : DotDims S16x16384x256 S16x256x1 S16x16384x1 where
  lhsContracting := [2]
  rhsContracting := [1]
  lhsNonContracting := [1]
  rhsNonContracting := [2]
  lhsBatch := [0]
  rhsBatch := [0]
  wf := dot_S16x16384x256_S16x256x1_S16x16384x1_2_1_1_2_0_0_wf

class Facts : Prop extends Facts₀ where

variable [Facts]
-- ==== Proof.Network.lean ====
/-
  The network both programs compute, as ONE function of the argument arrays, entry by entry, on the extended reals.

  For batch b and sample n, with x = X[b, n, :] (three coordinates) and the scaled frequency table fr d f = R[f, d] · 20:
    phase f = x 0 · fr 0 f + x 1 · fr 1 f + x 2 · fr 2 f                      (60 phases)
    enc j   = sin (phase j) for j < 60,  cos (phase (j - 60)) for 60 ≤ j      (120 features)
  then five layers  h ↦ max (Σ k, h k · W[b, k, ·] + W[b, last, ·]) 0  (the last row of each weight array is the bias)
  and one output layer without the max, whose single entry is the result at (b, n, 0).
  Nothing here is evaluated: the literal words 20.0 and 0.0 stay as the values their bit patterns denote.
-/
import Idealize.ShloMosaic.PureOps.Ideal
import Idealize.ShloMosaic.Lib.ValueIdx

noncomputable section

open scoped BigOperators
open Idealize.ShloMosaic Idealize.ShloMosaic.ValueIdx

namespace Cert.Nerf

/-- Entry j of an affine layer: the sum over k of h k · w k j, plus the bias β j. -/
def affine {K H : Nat} (h : Fin K → EReal) (w : Fin K → Fin H → EReal) (β : Fin H → EReal) (j : Fin H) : EReal :=
  (∑ k : Fin K, h k * w k j) + β j

/-- The rectifier: the larger of v and the value of the word 0.0. -/
def relu (v : EReal) : EReal := max v (Ideal.ofBits .f32 0x00000000#32)

/-- A hidden layer: an affine layer followed by the rectifier, entry by entry. -/
def hidden {K H : Nat} (h : Fin K → EReal) (w : Fin K → Fin H → EReal) (β : Fin H → EReal) : Fin H → EReal :=
  fun j => relu (affine h w β j)

/-- The phase of frequency f: the three-term inner product of the point with column f of the scaled table. -/
def phase (x : Fin 3 → EReal) (fr : Fin 3 → Fin 60 → EReal) (f : Fin 60) : EReal :=
  x 0 * fr 0 f + x 1 * fr 1 f + x 2 * fr 2 f

/-- The positional encoding: the sixty sines, then the sixty cosines, of the phases. -/
def enc (x : Fin 3 → EReal) (fr : Fin 3 → Fin 60 → EReal) (j : Fin 120) : EReal :=
  if h : j.val < 60 then Ideal.sin (phase x fr ⟨j.val, h⟩) else Ideal.cos (phase x fr ⟨j.val - 60, by omega⟩)

/-- The whole network at one point: encoding, five hidden layers, the output layer's one entry. -/
def net (x : Fin 3 → EReal) (fr : Fin 3 → Fin 60 → EReal)
    (w0 : Fin 120 → Fin 256 → EReal) (β0 : Fin 256 → EReal)
    (w1 : Fin 256 → Fin 256 → EReal) (β1 : Fin 256 → EReal)
    (w2 : Fin 256 → Fin 256 → EReal) (β2 : Fin 256 → EReal)
    (w3 : Fin 256 → Fin 256 → EReal) (β3 : Fin 256 → EReal)
    (w4 : Fin 256 → Fin 256 → EReal) (β4 : Fin 256 → EReal)
    (wo : Fin 256 → Fin 1 → EReal) (βo : Fin 1 → EReal) (z : Fin 1) : EReal :=
  affine (hidden (hidden (hidden (hidden (hidden (enc x fr) w0 β0) w1 β1) w2 β2) w3 β3) w4 β4) wo βo z

/-- The weight rows of batch b of a stacked weight-and-bias array: rows 0 … K-1. -/
def wts {B K1 H : Nat} (W : (⟨3, ![B, K1, H]⟩ : Shape).Idx → EReal) (b : Fin B) (K : Nat) (hK : K < K1) :
    Fin K → Fin H → EReal :=
  fun k j => W (ix3 b ⟨k.val, Nat.lt_trans k.isLt hK⟩ j)

/-- The bias row of batch b of a stacked weight-and-bias array: row K. -/
def bias {B K1 H : Nat} (W : (⟨3, ![B, K1, H]⟩ : Shape).Idx → EReal) (b : Fin B) (K : Nat) (hK : K < K1) :
    Fin H → EReal :=
  fun j => W (ix3 b ⟨K, hK⟩ j)

/-- The scaled frequency table, transposed: entry (d, f) is R[f, d] times the value of the word 20.0. -/
def freqs (R : (⟨2, ![60, 3]⟩ : Shape).Idx → EReal) : Fin 3 → Fin 60 → EReal :=
  fun d f => R (ix2 f d) * Ideal.ofBits .f32 0x41A00000#32

/-- The result at batch b, sample n, as a function of the eight argument arrays. -/
def at_ (X : (⟨3, ![16, 16384, 3]⟩ : Shape).Idx → EReal)
    (W0 : (⟨3, ![16, 121, 256]⟩ : Shape).Idx → EReal)
    (W1 W2 W3 W4 : (⟨3, ![16, 257, 256]⟩ : Shape).Idx → EReal)
    (Wo : (⟨3, ![16, 257, 1]⟩ : Shape).Idx → EReal)
    (R : (⟨2, ![60, 3]⟩ : Shape).Idx → EReal) (b : Fin 16) (n : Fin 16384) (z : Fin 1) : EReal :=
  net (fun d => X (ix3 b n d)) (freqs R)
    (wts W0 b 120 (by omega)) (bias W0 b 120 (by omega))
    (wts W1 b 256 (by omega)) (bias W1 b 256 (by omega))
    (wts W2 b 256 (by omega)) (bias W2 b 256 (by omega))
    (wts W3 b 256 (by omega)) (bias W3 b 256 (by omega))
    (wts W4 b 256 (by omega)) (bias W4 b 256 (by omega))
    (wts Wo b 256 (by omega)) (bias Wo b 256 (by omega)) z

/-- The whole result array. -/
def G (X : (⟨3, ![16, 16384, 3]⟩ : Shape).Idx → EReal)
    (W0 : (⟨3, ![16, 121, 256]⟩ : Shape).Idx → EReal)
    (W1 W2 W3 W4 : (⟨3, ![16, 257, 256]⟩ : Shape).Idx → EReal)
    (Wo : (⟨3, ![16, 257, 1]⟩ : Shape).Idx → EReal)
    (R : (⟨2, ![60, 3]⟩ : Shape).Idx → EReal) : (⟨3, ![16, 16384, 1]⟩ : Shape).Idx → EReal :=
  fun i => at_ X W0 W1 W2 W3 W4 Wo R ⟨(i 0).val, (i 0).isLt⟩ ⟨(i 1).val, (i 1).isLt⟩ ⟨(i 2).val, (i 2).isLt⟩

theorem G_ix3 (X : (⟨3, ![16, 16384, 3]⟩ : Shape).Idx → EReal)
    (W0 : (⟨3, ![16, 121, 256]⟩ : Shape).Idx → EReal)
    (W1 W2 W3 W4 : (⟨3, ![16, 257, 256]⟩ : Shape).Idx → EReal)
    (Wo : (⟨3, ![16, 257, 1]⟩ : Shape).Idx → EReal)
    (R : (⟨2, ![60, 3]⟩ : Shape).Idx → EReal) (b : Fin 16) (n : Fin 16384) (z : Fin 1) :
    G X W0 W1 W2 W3 W4 Wo R (ix3 b n z) = at_ X W0 W1 W2 W3 W4 Wo R b n z := rfl

end Cert.Nerf

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.LibBlockRead.lean ====
/-
  Three layout operations on matrices read at one entry (p, q), for any element type.

  * A one-column matrix [R, 1] spread across C columns: entry (p, k) is the column's entry (p, 0).
  * A unit-stride window [a, b] cut out of a matrix [A, B] at offsets (o0, o1): entry (p, q) is the matrix's entry (o0 + p, o1 + q).
  * Two matrices [R, C1] and [R, C2] laid side by side into [R, C]: entry (p, j) is the first's entry (p, j) when j < C1,
    and the second's entry (p, j - C1) otherwise.
-/
import Idealize.ShloMosaic.Lib.ValueIdx
import Idealize.ShloMosaic.Lib.Pipeline.Value

noncomputable section

open Idealize.ShloMosaic Idealize.ShloMosaic.ValueIdx

namespace Cert.Lib.BlockRead

variable {α : Type}

/-- A one-column matrix spread across the columns, at entry (p, k): the column's entry (p, 0). -/
theorem colSpread_apply {R C : Nat} (x : (⟨2, ![R, 1]⟩ : Shape).Idx → α)
    (h : (⟨2, ![R, 1]⟩ : Shape).Broadcasts ⟨2, ![R, C]⟩) (p : Fin R) (k : Fin C) :
    broadcastTo ⟨2, ![R, C]⟩ x h (ix2 p k) = x (ix2 p (0 : Fin 1)) := by
  refine broadcastTo_apply x h (ix2 p k) (ix2 p (0 : Fin 1)) fun a => ?_
  match a with
  | ⟨0, _⟩ =>
    show p.val = if R = 1 then 0 else p.val
    split
    · have := p.isLt; omega
    · rfl
  | ⟨1, _⟩ => rfl

/-- A unit-stride window of a matrix, at entry (p, q): the matrix's entry (o0 + p, o1 + q), named (P, Q). -/
theorem window_apply {A B a b : Nat} (o0 o1 : Nat) (x : (⟨2, ![A, B]⟩ : Shape).Idx → α)
    (h : (⟨2, ![A, B]⟩ : Shape).Slices ![o0, o1] ⟨2, ![a, b]⟩) (p : Fin a) (q : Fin b) (P : Fin A) (Q : Fin B)
    (hP : P.val = o0 + p.val) (hQ : Q.val = o1 + q.val) :
    extractStridedSlice ⟨2, ![a, b]⟩ ![o0, o1] x h (ix2 p q) = x (ix2 P Q) :=
  extractStridedSlice_apply _ x h _ _ fun c => match c with
    | ⟨0, _⟩ => hP
    | ⟨1, _⟩ => hQ

/-- Two matrices side by side, at a column of the first. -/
theorem beside_left {R C1 C2 C : Nat} (x₁ : (⟨2, ![R, C1]⟩ : Shape).Idx → α) (x₂ : (⟨2, ![R, C2]⟩ : Shape).Idx → α)
    (h : Shape.Concatenates [(⟨2, ![R, C1]⟩ : Shape), ⟨2, ![R, C2]⟩] ⟨2, ![R, C]⟩ 1) (p : Fin R) (j : Fin C) (j₁ : Fin C1)
    (hj : j₁.val = j.val) :
    concatenate ⟨2, ![R, C]⟩ 1 [⟨⟨2, ![R, C1]⟩, x₁⟩, ⟨⟨2, ![R, C2]⟩, x₂⟩] h (ix2 p j) = x₁ (ix2 p j₁) :=
  concatenate_pair_apply_left 1 x₁ x₂ h (ix2 p j) rfl (ix2 p j₁) fun b => match b with
    | ⟨0, _⟩ => rfl
    | ⟨1, _⟩ => hj

/-- Two matrices side by side, at a column of the second. -/
theorem beside_right {R C1 C2 C : Nat} (x₁ : (⟨2, ![R, C1]⟩ : Shape).Idx → α) (x₂ : (⟨2, ![R, C2]⟩ : Shape).Idx → α)
    (h : Shape.Concatenates [(⟨2, ![R, C1]⟩ : Shape), ⟨2, ![R, C2]⟩] ⟨2, ![R, C]⟩ 1) (p : Fin R) (j : Fin C) (j₂ : Fin C2)
    (hj : j₂.val + C1 = j.val) :
    concatenate ⟨2, ![R, C]⟩ 1 [⟨⟨2, ![R, C1]⟩, x₁⟩, ⟨⟨2, ![R, C2]⟩, x₂⟩] h (ix2 p j) = x₂ (ix2 p j₂) :=
  concatenate_pair_apply_right 1 x₁ x₂ h (ix2 p j) rfl rfl (ix2 p j₂)
    (fun b hb => match b, hb with
      | ⟨0, _⟩, _ => rfl
      | ⟨1, _⟩, hb => absurd rfl hb)
    hj

end Cert.Lib.BlockRead

end
-- ==== Proof.KernelLayers.lean ====
/-
  The kernel's body on one block, layer by layer, each layer read at one entry.

  The body's stored value is a composition of a few array-level steps: the phases of a [2048, 3] block of points against the
  [3, 60] table, the encoding (sines beside cosines), a dense step (a matrix product into zero plus the spread bias row, the
  weights being rows 0 … K-1 and the bias row K of the loaded weight block) and the rectifier. Each step is written here once, as
  the body's own operations, and read at entry (p, j): row p of a step's result depends on row p of its operand only, and is
  the corresponding step of the network at that row. Changes of float format are the identity on the extended reals.
-/
import proofs.«157992_j31671088840755_1_alg».proof.Proof.Gen.KernelIdeal.Skeleton
import proofs.«157992_j31671088840755_1_alg».proof.Proof.Network
import proofs.«157992_j31671088840755_1_alg».proof.Proof.LibPlainMatmul
import proofs.«157992_j31671088840755_1_alg».proof.Proof.LibBlockRead
import Idealize.ShloMosaic.Lib.ValueLayout

noncomputable section

open scoped BigOperators
open Idealize.ShloMosaic Idealize.ShloMosaic.ValueIdx
open Cert.KernelIdeal Cert.KernelIdeal.Gen Cert.Nerf Cert.Lib

namespace Cert.KernelIdeal.Layer

/-! ## The steps, as the body spells them -/

/-- The sixty phases of each of the block's 2048 points: three products of a spread column of points with a spread row of the
    table, added left to right. -/
def phaseBlk (v0 : Vec Ideal S1x2048x3 .f32) (v2 : Vec Ideal S3x60 .f32) : FVec Ideal S2048x60 .f32 :=
  addf (addf
    (mulf (broadcastTo S2048x60 (extractStridedSlice S2048x1 ![0, 0] (shapeCast S2048x3 v0 shapeCasts_S1x2048x3_S2048x3) slices_S2048x3_o0_0_S2048x1) broadcasts_S2048x1_S2048x60)
          (broadcastTo S2048x60 (extractStridedSlice S1x60 ![0, 0] (shapeCast S3x60 v2 shapeCasts_S3x60_S3x60) slices_S3x60_o0_0_S1x60) broadcasts_S1x60_S2048x60))
    (mulf (broadcastTo S2048x60 (extractStridedSlice S2048x1 ![0, 1] (shapeCast S2048x3 v0 shapeCasts_S1x2048x3_S2048x3) slices_S2048x3_o0_1_S2048x1) broadcasts_S2048x1_S2048x60)
          (broadcastTo S2048x60 (extractStridedSlice S1x60 ![1, 0] (shapeCast S3x60 v2 shapeCasts_S3x60_S3x60) slices_S3x60_o1_0_S1x60) broadcasts_S1x60_S2048x60)))
    (mulf (broadcastTo S2048x60 (extractStridedSlice S2048x1 ![0, 2] (shapeCast S2048x3 v0 shapeCasts_S1x2048x3_S2048x3) slices_S2048x3_o0_2_S2048x1) broadcasts_S2048x1_S2048x60)
          (broadcastTo S2048x60 (extractStridedSlice S1x60 ![2, 0] (shapeCast S3x60 v2 shapeCasts_S3x60_S3x60) slices_S3x60_o2_0_S1x60) broadcasts_S1x60_S2048x60))

/-- The encoding of the block: the sines of the phases beside their cosines. -/
def encBlk (v0 : Vec Ideal S1x2048x3 .f32) (v2 : Vec Ideal S3x60 .f32) : FVec Ideal S2048x120 .f32 :=
  concatenate S2048x120 1 [⟨S2048x60, sin (phaseBlk v0 v2)⟩, ⟨S2048x60, cos (phaseBlk v0 v2)⟩] concatenates_S2048x60_S2048x60_S2048x120_d1

/-- The first dense step: 120 features in, 256 out, against a [1, 121, 256] weight block. -/
def dense0 (h : FVec Ideal S2048x120 .f32) (wv : Vec Ideal S1x121x256 .f32) : FVec Ideal S2048x256 .f32 :=
  addf (matmul dot_S2048x120_S120x256_S2048x256_1_0_0_1_n_n none (truncf .bf16 h bitsLt_bf16_f32)
      (truncf .bf16 (extractStridedSlice S120x256 ![0, 0] (shapeCast S121x256 wv shapeCasts_S1x121x256_S121x256) slices_S121x256_o0_0_S120x256) bitsLt_bf16_f32)
      (constant S2048x256 .f32 0x00000000#32))
    (broadcastTo S2048x256 (extractStridedSlice S1x256 ![120, 0] (shapeCast S121x256 wv shapeCasts_S1x121x256_S121x256) slices_S121x256_o120_0_S1x256) broadcasts_S1x256_S2048x256)

/-- A later dense step: 256 in, 256 out, against a [1, 257, 256] weight block. -/
def dense256 (h : FVec Ideal S2048x256 .f32) (wv : Vec Ideal S1x257x256 .f32) : FVec Ideal S2048x256 .f32 :=
  addf (matmul dot_S2048x256_S256x256_S2048x256_1_0_0_1_n_n none (truncf .bf16 h bitsLt_bf16_f32)
      (truncf .bf16 (extractStridedSlice S256x256 ![0, 0] (shapeCast S257x256 wv shapeCasts_S1x257x256_S257x256) slices_S257x256_o0_0_S256x256) bitsLt_bf16_f32)
      (constant S2048x256 .f32 0x00000000#32))
    (broadcastTo S2048x256 (extractStridedSlice S1x256 ![256, 0] (shapeCast S257x256 wv shapeCasts_S1x257x256_S257x256) slices_S257x256_o256_0_S1x256) broadcasts_S1x256_S2048x256)

/-- The rectifier on a block. -/
def reluBlk (v : FVec Ideal S2048x256 .f32) : FVec Ideal S2048x256 .f32 :=
  maximumf v (broadcast S2048x256 (Scalar.ofBits .f32 0x00000000#32))

/-- The body's two larger payloads are these steps composed. -/
theorem pay2_eq (v0 : Vec Ideal S1x2048x3 .f32) (v2 : Vec Ideal S3x60 .f32) (v24 : Vec Ideal S1x121x256 .f32) (v35 : Vec Ideal S1x257x256 .f32) :
    k0_pay2 v0 v2 v24 v35 = dense256 (reluBlk (dense0 (encBlk v0 v2) v24)) v35 := rfl

theorem pay6_eq (v43 : FVec Ideal S2048x256 .f32) (v46 v57 v68 : Vec Ideal S1x257x256 .f32) :
    k0_pay6 v43 v46 v57 v68
      = truncf .bf16 (reluBlk (dense256 (reluBlk (dense256 (reluBlk (dense256 (reluBlk v43) v46)) v57)) v68)) bitsLt_bf16_f32 := rfl

/-! ## Each step read at one entry -/

/-- Row p of the phases: the network's phases of point p of the block against the table. -/
theorem phaseBlk_apply (v0 : Vec Ideal S1x2048x3 .f32) (v2 : Vec Ideal S3x60 .f32) (p : Fin 2048) (f : Fin 60) :
    phaseBlk v0 v2 (ix2 p f) = phase (fun d => v0 (ix3 (0 : Fin 1) p d)) (fun d f => v2 (ix2 d f)) f := by
  unfold phaseBlk phase
  simp only [addf_apply, mulf_apply]
  rw [BlockRead.colSpread_apply, BlockRead.colSpread_apply, BlockRead.colSpread_apply,
    PlainMatmul.rowSpread_apply, PlainMatmul.rowSpread_apply, PlainMatmul.rowSpread_apply,
    BlockRead.window_apply 0 0 _ _ p (0 : Fin 1) p (0 : Fin 3) (by simp) rfl,
    BlockRead.window_apply 0 1 _ _ p (0 : Fin 1) p (1 : Fin 3) (by simp) rfl,
    BlockRead.window_apply 0 2 _ _ p (0 : Fin 1) p (2 : Fin 3) (by simp) rfl,
    BlockRead.window_apply 0 0 _ _ (0 : Fin 1) f (0 : Fin 3) f rfl (by simp),
    BlockRead.window_apply 1 0 _ _ (0 : Fin 1) f (1 : Fin 3) f rfl (by simp),
    BlockRead.window_apply 2 0 _ _ (0 : Fin 1) f (2 : Fin 3) f rfl (by simp),
    shapeCast_1ab_ab_apply, shapeCast_1ab_ab_apply, shapeCast_1ab_ab_apply, shapeCast_self]

/-- Row p of the encoding: the network's encoding of point p. -/
theorem encBlk_apply (v0 : Vec Ideal S1x2048x3 .f32) (v2 : Vec Ideal S3x60 .f32) (p : Fin 2048) (j : Fin 120) :
    encBlk v0 v2 (ix2 p j) = enc (fun d => v0 (ix3 (0 : Fin 1) p d)) (fun d f => v2 (ix2 d f)) j := by
  unfold encBlk enc
  split
  · rename_i hj
    rw [BlockRead.beside_left _ _ _ p j ⟨j.val, hj⟩ rfl]
    show Ideal.sin (phaseBlk v0 v2 (ix2 p ⟨j.val, hj⟩)) = _
    rw [phaseBlk_apply]
  · rename_i hj
    rw [BlockRead.beside_right _ _ _ p j ⟨j.val - 60, by omega⟩ (by show j.val - 60 + 60 = j.val; omega)]
    show Ideal.cos (phaseBlk v0 v2 (ix2 p ⟨j.val - 60, _⟩)) = _
    rw [phaseBlk_apply]

/-- Row p of the first dense step: the affine layer of row p of its operand, with the block's weight rows and bias row. -/
theorem dense0_apply (h : FVec Ideal S2048x120 .f32) (wv : Vec Ideal S1x121x256 .f32) (p : Fin 2048) (j : Fin 256) :
    dense0 h wv (ix2 p j) = affine (fun k => h (ix2 p k)) (wts wv (0 : Fin 1) 120 (by omega)) (bias wv (0 : Fin 1) 120 (by omega)) j := by
  unfold dense0 affine
  dsimp only [matmul]
  rw [addf_apply, PlainMatmul.apply _ rfl rfl rfl rfl rfl rfl, PlainMatmul.rowSpread_apply,
    BlockRead.window_apply 120 0 _ _ (0 : Fin 1) j ⟨120, by omega⟩ j rfl (by simp), shapeCast_1ab_ab_apply]
  refine congrArg₂ (· + ·) (Finset.sum_congr rfl fun k _ => ?_) rfl
  rw [truncf_apply, truncf_apply,
    BlockRead.window_apply 0 0 _ _ k j ⟨k.val, by omega⟩ j (by simp) (by simp), shapeCast_1ab_ab_apply]
  rfl

/-- Row p of a later dense step, likewise. -/
theorem dense256_apply (h : FVec Ideal S2048x256 .f32) (wv : Vec Ideal S1x257x256 .f32) (p : Fin 2048) (j : Fin 256) :
    dense256 h wv (ix2 p j) = affine (fun k => h (ix2 p k)) (wts wv (0 : Fin 1) 256 (by omega)) (bias wv (0 : Fin 1) 256 (by omega)) j := by
  unfold dense256 affine
  dsimp only [matmul]
  rw [addf_apply, PlainMatmul.apply _ rfl rfl rfl rfl rfl rfl, PlainMatmul.rowSpread_apply,
    BlockRead.window_apply 256 0 _ _ (0 : Fin 1) j ⟨256, by omega⟩ j rfl (by simp), shapeCast_1ab_ab_apply]
  refine congrArg₂ (· + ·) (Finset.sum_congr rfl fun k _ => ?_) rfl
  rw [truncf_apply, truncf_apply,
    BlockRead.window_apply 0 0 _ _ k j ⟨k.val, by omega⟩ j (by simp) (by simp), shapeCast_1ab_ab_apply]
  rfl

/-- The rectifier at an entry. -/
theorem reluBlk_apply (v : FVec Ideal S2048x256 .f32) (p : Fin 2048) (j : Fin 256) :
    reluBlk v (ix2 p j) = relu (v (ix2 p j)) := rfl

/-- The output step (a product with the one weight column plus the spread bias entry, recast to [1, 2048, 1]) at entry
    (0, p, z): the affine layer of row p of its operand. -/
theorem out_apply (h : FVec Ideal S2048x256 .bf16) (wv : Vec Ideal S1x257x1 .f32) (p : Fin 2048) (z : Fin 1) :
    k0_pay1 (k0_pay4 wv) (k0_pay5 wv) h (ix3 (0 : Fin 1) p z)
      = affine (fun k => h (ix2 p k)) (wts wv (0 : Fin 1) 256 (by omega)) (bias wv (0 : Fin 1) 256 (by omega)) z := by
  unfold k0_pay1 k0_pay4 k0_pay5 k0_pay3 affine
  dsimp only [matmul]
  rw [shapeCast_ab_1ab_apply, addf_apply, PlainMatmul.apply _ rfl rfl rfl rfl rfl rfl, PlainMatmul.rowSpread_apply,
    BlockRead.window_apply 256 0 _ _ (0 : Fin 1) z ⟨256, by omega⟩ z rfl (by simp), shapeCast_1ab_ab_apply]
  refine congrArg₂ (· + ·) (Finset.sum_congr rfl fun k _ => ?_) rfl
  rw [truncf_apply,
    BlockRead.window_apply 0 0 _ _ k z ⟨k.val, by omega⟩ z (by simp) (by simp), shapeCast_1ab_ab_apply]
  rfl

/-! ## The stored value -/

/-- The value the body stores, at entry (0, p, z), is the network at point p of the points block, with the table block and
    the six weight blocks' rows: the steps above, composed. -/
theorem stored_apply (x0 : Vec Ideal S1x2048x3 .f32) (x1 : Vec Ideal S3x60 .f32) (x2 : Vec Ideal S1x121x256 .f32)
    (x3 x4 x5 x6 : Vec Ideal S1x257x256 .f32) (x7 : Vec Ideal S1x257x1 .f32) (p : Fin 2048) (z : Fin 1) :
    k0_pay1 (k0_pay4 x7) (k0_pay5 x7) (k0_pay6 (k0_pay2 x0 x1 x2 x3) x4 x5 x6) (ix3 (0 : Fin 1) p z)
      = net (fun d => x0 (ix3 (0 : Fin 1) p d)) (fun d f => x1 (ix2 d f))
          (wts x2 (0 : Fin 1) 120 (by omega)) (bias x2 (0 : Fin 1) 120 (by omega))
          (wts x3 (0 : Fin 1) 256 (by omega)) (bias x3 (0 : Fin 1) 256 (by omega))
          (wts x4 (0 : Fin 1) 256 (by omega)) (bias x4 (0 : Fin 1) 256 (by omega))
          (wts x5 (0 : Fin 1) 256 (by omega)) (bias x5 (0 : Fin 1) 256 (by omega))
          (wts x6 (0 : Fin 1) 256 (by omega)) (bias x6 (0 : Fin 1) 256 (by omega))
          (wts x7 (0 : Fin 1) 256 (by omega)) (bias x7 (0 : Fin 1) 256 (by omega)) z := by
  rw [out_apply, pay6_eq, pay2_eq]
  simp only [truncf_apply, reluBlk_apply, dense256_apply, dense0_apply, encBlk_apply]
  rfl

end Cert.KernelIdeal.Layer

end
-- ==== Proof.KernelArray.lean ====
/-
  From the kernel's blocks to its whole result array.

  The grid has 16 × 8 points; point (b, s) stages batch b's rows 2048 s … 2048 s + 2047 of the points array, the whole
  frequency table (scaled by 20 and transposed by the host operations before the launch), batch b's six weight arrays, and
  writes back rows 2048 s … of batch b of the result. So entry (0, p, z) of what the point writes back is the network at
  (b, 2048 s + p): each staged block's entry is the argument array's entry at the block's offset, and the body's stored value
  at an entry is the network of the blocks' rows. The 128 written blocks tile the result array, so the array ends holding the
  network everywhere.
-/
import proofs.«157992_j31671088840755_1_alg».proof.Proof.Gen.KernelIdeal.Value
import proofs.«157992_j31671088840755_1_alg».proof.Proof.KernelLayers
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Nerf

namespace Cert.KernelIdeal.Whole

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The argument arrays and the staged blocks, at their literal types -/

abbrev aX (c : Dev nD) : S16x16384x3.Idx → EReal := m ((c : Thread nD τ).loc main_arg0)
abbrev aW0 (c : Dev nD) : S16x121x256.Idx → EReal := m ((c : Thread nD τ).loc main_arg1)
abbrev aW1 (c : Dev nD) : S16x257x256.Idx → EReal := m ((c : Thread nD τ).loc main_arg2)
abbrev aW2 (c : Dev nD) : S16x257x256.Idx → EReal := m ((c : Thread nD τ).loc main_arg3)
abbrev aW3 (c : Dev nD) : S16x257x256.Idx → EReal := m ((c : Thread nD τ).loc main_arg4)
abbrev aW4 (c : Dev nD) : S16x257x256.Idx → EReal := m ((c : Thread nD τ).loc main_arg5)
abbrev aWo (c : Dev nD) : S16x257x1.Idx → EReal := m ((c : Thread nD τ).loc main_arg6)
abbrev aR (c : Dev nD) : S60x3.Idx → EReal := m ((c : Thread nD τ).loc main_arg7)

abbrev bX (c : Dev nD) (t : Fin cfg0.N) : Vec Ideal S1x2048x3 .f32 := iblk m c 0 t
abbrev bF (c : Dev nD) (t : Fin cfg0.N) : Vec Ideal S3x60 .f32 := iblk m c 1 t
abbrev bW0 (c : Dev nD) (t : Fin cfg0.N) : Vec Ideal S1x121x256 .f32 := iblk m c 2 t
abbrev bW1 (c : Dev nD) (t : Fin cfg0.N) : Vec Ideal S1x257x256 .f32 := iblk m c 3 t
abbrev bW2 (c : Dev nD) (t : Fin cfg0.N) : Vec Ideal S1x257x256 .f32 := iblk m c 4 t
abbrev bW3 (c : Dev nD) (t : Fin cfg0.N) : Vec Ideal S1x257x256 .f32 := iblk m c 5 t
abbrev bW4 (c : Dev nD) (t : Fin cfg0.N) : Vec Ideal S1x257x256 .f32 := iblk m c 6 t
abbrev bWo (c : Dev nD) (t : Fin cfg0.N) : Vec Ideal S1x257x1 .f32 := iblk m c 7 t

/-! ## The index maps, decided over the 128 points -/

/-- Every staged window sits at the output block's batch; the points window also at its row tile; all other block indices
    are zero; the output's batch index is below 16 and its tile index below 8. -/
theorem idx_facts : ∀ t : Fin cfg0.N,
    (win0_0.index t (0 : Fin 3) = win0_8.index t (0 : Fin 3) ∧ win0_0.index t (1 : Fin 3) = win0_8.index t (1 : Fin 3) ∧ win0_0.index t (2 : Fin 3) = 0)
    ∧ (win0_1.index t (0 : Fin 2) = 0 ∧ win0_1.index t (1 : Fin 2) = 0)
    ∧ (win0_2.index t (0 : Fin 3) = win0_8.index t (0 : Fin 3) ∧ win0_2.index t (1 : Fin 3) = 0 ∧ win0_2.index t (2 : Fin 3) = 0)
    ∧ (win0_3.index t (0 : Fin 3) = win0_8.index t (0 : Fin 3) ∧ win0_3.index t (1 : Fin 3) = 0 ∧ win0_3.index t (2 : Fin 3) = 0)
    ∧ (win0_4.index t (0 : Fin 3) = win0_8.index t (0 : Fin 3) ∧ win0_4.index t (1 : Fin 3) = 0 ∧ win0_4.index t (2 : Fin 3) = 0)
    ∧ (win0_5.index t (0 : Fin 3) = win0_8.index t (0 : Fin 3) ∧ win0_5.index t (1 : Fin 3) = 0 ∧ win0_5.index t (2 : Fin 3) = 0)
    ∧ (win0_6.index t (0 : Fin 3) = win0_8.index t (0 : Fin 3) ∧ win0_6.index t (1 : Fin 3) = 0 ∧ win0_6.index t (2 : Fin 3) = 0)
    ∧ (win0_7.index t (0 : Fin 3) = win0_8.index t (0 : Fin 3) ∧ win0_7.index t (1 : Fin 3) = 0 ∧ win0_7.index t (2 : Fin 3) = 0)
    ∧ (win0_8.index t (0 : Fin 3) ≤ 15 ∧ win0_8.index t (1 : Fin 3) ≤ 7 ∧ win0_8.index t (2 : Fin 3) = 0) :=
  (by decide +kernel : ∀ t : Fin grid0.N, _)

/-- Every (batch, tile) pair is some point's output block. -/
theorem idx_onto : ∀ (q0 : Fin 16) (q1 : Fin 8), ∃ t : Fin cfg0.N, win0_8.index t = ![q0.val, q1.val, 0] :=
  (by decide +kernel : ∀ (q0 : Fin 16) (q1 : Fin 8), ∃ t : Fin grid0.N, win0_8.index t = ![q0.val, q1.val, 0])

/-! ## Each staged block is its argument array at the block's offset -/

/-- An entry of the staged points block is the points array's entry at the block's batch and row offset. -/
theorem bX_apply (c : Dev nD) (t : Fin cfg0.N) (p : Fin 2048) (d : Fin 3) (b : Fin 16) (n : Fin 16384)
    (hb : b.val = win0_8.index t (0 : Fin 3)) (hn : n.val = win0_8.index t (1 : Fin 3) * 2048 + p.val) :
    bX m c t (ix3 (0 : Fin 1) p d) = aX m c (ix3 b n d) := by
  have hf := idx_facts t
  show iblk m c 0 t (ix3 (0 : Fin 1) p d) = _
  unfold iblk
  rw [View.read_apply]
  show V m c main_arg0 _ = m ((c : Thread nD τ).loc main_arg0) _
  rw [V_main_arg0]
  congr 1
  funext a
  apply Fin.ext
  match a with
  | ⟨0, _⟩ =>
    show win0_0.index t (0 : Fin 3) * 1 + 1 * 0 = b.val
    omega
  | ⟨1, _⟩ =>
    show win0_0.index t (1 : Fin 3) * 2048 + 1 * p.val = n.val
    omega
  | ⟨2, _⟩ =>
    show win0_0.index t (2 : Fin 3) * 3 + 1 * d.val = d.val
    omega

/-- An entry of the staged block of weight array 1 is the array's entry at the block's batch. -/
theorem bW0_apply (c : Dev nD) (t : Fin cfg0.N) (k : Fin 121) (j : Fin 256) (b : Fin 16)
    (hb : b.val = win0_8.index t (0 : Fin 3)) :
    bW0 m c t (ix3 (0 : Fin 1) k j) = aW0 m c (ix3 b k j) := by
  have hf := idx_facts t
  show iblk m c 2 t (ix3 (0 : Fin 1) k j) = _
  unfold iblk
  rw [View.read_apply]
  show V m c main_arg1 _ = m ((c : Thread nD τ).loc main_arg1) _
  rw [V_main_arg1]
  congr 1
  funext a
  apply Fin.ext
  match a with
  | ⟨0, _⟩ =>
    show win0_2.index t (0 : Fin 3) * 1 + 1 * 0 = b.val
    omega
  | ⟨1, _⟩ =>
    show win0_2.index t (1 : Fin 3) * 121 + 1 * k.val = k.val
    omega
  | ⟨2, _⟩ =>
    show win0_2.index t (2 : Fin 3) * 256 + 1 * j.val = j.val
    omega

/-- An entry of the staged block of weight array 2 is the array's entry at the block's batch. -/
theorem bW1_apply (c : Dev nD) (t : Fin cfg0.N) (k : Fin 257) (j : Fin 256) (b : Fin 16)
    (hb : b.val = win0_8.index t (0 : Fin 3)) :
    bW1 m c t (ix3 (0 : Fin 1) k j) = aW1 m c (ix3 b k j) := by
  have hf := idx_facts t
  show iblk m c 3 t (ix3 (0 : Fin 1) k j) = _
  unfold iblk
  rw [View.read_apply]
  show V m c main_arg2 _ = m ((c : Thread nD τ).loc main_arg2) _
  rw [V_main_arg2]
  congr 1
  funext a
  apply Fin.ext
  match a with
  | ⟨0, _⟩ =>
    show win0_3.index t (0 : Fin 3) * 1 + 1 * 0 = b.val
    omega
  | ⟨1, _⟩ =>
    show win0_3.index t (1 : Fin 3) * 257 + 1 * k.val = k.val
    omega
  | ⟨2, _⟩ =>
    show win0_3.index t (2 : Fin 3) * 256 + 1 * j.val = j.val
    omega

/-- An entry of the staged block of weight array 3 is the array's entry at the block's batch. -/
theorem bW2_apply (c : Dev nD) (t : Fin cfg0.N) (k : Fin 257) (j : Fin 256) (b : Fin 16)
    (hb : b.val = win0_8.index t (0 : Fin 3)) :
    bW2 m c t (ix3 (0 : Fin 1) k j) = aW2 m c (ix3 b k j) := by
  have hf := idx_facts t
  show iblk m c 4 t (ix3 (0 : Fin 1) k j) = _
  unfold iblk
  rw [View.read_apply]
  show V m c main_arg3 _ = m ((c : Thread nD τ).loc main_arg3) _
  rw [V_main_arg3]
  congr 1
  funext a
  apply Fin.ext
  match a with
  | ⟨0, _⟩ =>
    show win0_4.index t (0 : Fin 3) * 1 + 1 * 0 = b.val
    omega
  | ⟨1, _⟩ =>
    show win0_4.index t (1 : Fin 3) * 257 + 1 * k.val = k.val
    omega
  | ⟨2, _⟩ =>
    show win0_4.index t (2 : Fin 3) * 256 + 1 * j.val = j.val
    omega

/-- An entry of the staged block of weight array 4 is the array's entry at the block's batch. -/
theorem bW3_apply (c : Dev nD) (t : Fin cfg0.N) (k : Fin 257) (j : Fin 256) (b : Fin 16)
    (hb : b.val = win0_8.index t (0 : Fin 3)) :
    bW3 m c t (ix3 (0 : Fin 1) k j) = aW3 m c (ix3 b k j) := by
  have hf := idx_facts t
  show iblk m c 5 t (ix3 (0 : Fin 1) k j) = _
  unfold iblk
  rw [View.read_apply]
  show V m c main_arg4 _ = m ((c : Thread nD τ).loc main_arg4) _
  rw [V_main_arg4]
  congr 1
  funext a
  apply Fin.ext
  match a with
  | ⟨0, _⟩ =>
    show win0_5.index t (0 : Fin 3) * 1 + 1 * 0 = b.val
    omega
  | ⟨1, _⟩ =>
    show win0_5.index t (1 : Fin 3) * 257 + 1 * k.val = k.val
    omega
  | ⟨2, _⟩ =>
    show win0_5.index t (2 : Fin 3) * 256 + 1 * j.val = j.val
    omega

/-- An entry of the staged block of weight array 5 is the array's entry at the block's batch. -/
theorem bW4_apply (c : Dev nD) (t : Fin cfg0.N) (k : Fin 257) (j : Fin 256) (b : Fin 16)
    (hb : b.val = win0_8.index t (0 : Fin 3)) :
    bW4 m c t (ix3 (0 : Fin 1) k j) = aW4 m c (ix3 b k j) := by
  have hf := idx_facts t
  show iblk m c 6 t (ix3 (0 : Fin 1) k j) = _
  unfold iblk
  rw [View.read_apply]
  show V m c main_arg5 _ = m ((c : Thread nD τ).loc main_arg5) _
  rw [V_main_arg5]
  congr 1
  funext a
  apply Fin.ext
  match a with
  | ⟨0, _⟩ =>
    show win0_6.index t (0 : Fin 3) * 1 + 1 * 0 = b.val
    omega
  | ⟨1, _⟩ =>
    show win0_6.index t (1 : Fin 3) * 257 + 1 * k.val = k.val
    omega
  | ⟨2, _⟩ =>
    show win0_6.index t (2 : Fin 3) * 256 + 1 * j.val = j.val
    omega

/-- An entry of the staged block of weight array 6 is the array's entry at the block's batch. -/
theorem bWo_apply (c : Dev nD) (t : Fin cfg0.N) (k : Fin 257) (j : Fin 1) (b : Fin 16)
    (hb : b.val = win0_8.index t (0 : Fin 3)) :
    bWo m c t (ix3 (0 : Fin 1) k j) = aWo m c (ix3 b k j) := by
  have hf := idx_facts t
  show iblk m c 7 t (ix3 (0 : Fin 1) k j) = _
  unfold iblk
  rw [View.read_apply]
  show V m c main_arg6 _ = m ((c : Thread nD τ).loc main_arg6) _
  rw [V_main_arg6]
  congr 1
  funext a
  apply Fin.ext
  match a with
  | ⟨0, _⟩ =>
    show win0_7.index t (0 : Fin 3) * 1 + 1 * 0 = b.val
    omega
  | ⟨1, _⟩ =>
    show win0_7.index t (1 : Fin 3) * 257 + 1 * k.val = k.val
    omega
  | ⟨2, _⟩ =>
    show win0_7.index t (2 : Fin 3) * 1 + 1 * j.val = j.val
    omega

/-- The table the region finds: the host operations before the launch scale the frequency array by the word 20.0 and
    transpose it. -/
theorem V_table (c : Dev nD) :
    (V m c main_v2 : S3x60.Idx → EReal)
      = transpose S3x60 [1, 0] (mulf (aR m c) (broadcastInDim S60x3 ![] bcast_S_S60x3 (constant (F := Ideal) S_ .f32 0x41A00000#32))) transposes_S60x3_S3x60_1_0 := by
  dsimp only [V, hostOps0]
  after_results

/-- An entry of the staged table block is the scaled, transposed frequency table's. -/
theorem bF_apply (c : Dev nD) (t : Fin cfg0.N) (d : Fin 3) (f : Fin 60) :
    bF m c t (ix2 d f) = freqs (aR m c) d f := by
  have hf := idx_facts t
  show iblk m c 1 t (ix2 d f) = _
  unfold iblk
  rw [View.read_apply]
  have he : ((cfg0.win 1).blk t).view.emb (ix2 d f) = ix2 d f := by
    funext a
    apply Fin.ext
    match a with
    | ⟨0, _⟩ =>
      show win0_1.index t (0 : Fin 2) * 3 + 1 * d.val = d.val
      omega
    | ⟨1, _⟩ =>
      show win0_1.index t (1 : Fin 2) * 60 + 1 * f.val = f.val
      omega
  show V m c main_v2 (((cfg0.win 1).blk t).view.emb (ix2 d f)) = _
  rw [he, V_table, transpose_ix2_apply]
  rfl

/-! ## What a point writes back -/

/-- Entry (0, p, z) of what point t's body leaves in the output block is the network at batch b, row n, whenever b is the
    point's batch and n its row offset plus p. -/
theorem point_at (c : Dev nD) (t : Fin cfg0.N) (p : Fin 2048) (z z' : Fin 1) (b : Fin 16) (n : Fin 16384)
    (hb : b.val = win0_8.index t (0 : Fin 3)) (hn : n.val = win0_8.index t (1 : Fin 3) * 2048 + p.val) :
    out0_8 (bX m c t) (bF m c t) (bW0 m c t) (bW1 m c t) (bW2 m c t) (bW3 m c t) (bW4 m c t) (bWo m c t) (ix3 (0 : Fin 1) p z)
      = at_ (aX m c) (aW0 m c) (aW1 m c) (aW2 m c) (aW3 m c) (aW4 m c) (aWo m c) (aR m c) b n z' := by
  unfold out0_8
  rw [View.canon_unit_zero hz3]
  simp only [View.ld_unit_zero (S := S1x2048x3) hz3, View.ld_unit_zero (S := S3x60) hz2, View.ld_unit_zero (S := S1x121x256) hz3,
    View.ld_unit_zero (S := S1x257x256) hz3, View.ld_unit_zero (S := S1x257x1) hz3]
  refine (Layer.stored_apply (bX m c t) (bF m c t) (bW0 m c t) (bW1 m c t) (bW2 m c t) (bW3 m c t) (bW4 m c t) (bWo m c t) p z).trans ?_
  unfold at_
  have e0 : (fun d => bX m c t (ix3 (0 : Fin 1) p d)) = fun d => aX m c (ix3 b n d) := funext fun d => bX_apply m c t p d b n hb hn
  have e1 : (fun d f => bF m c t (ix2 d f)) = freqs (aR m c) := funext fun d => funext fun f => bF_apply m c t d f
  have w0 : wts (bW0 m c t) (0 : Fin 1) 120 (by omega) = wts (aW0 m c) b 120 (by omega) := funext fun k => funext fun j => bW0_apply m c t _ j b hb
  have β0 : bias (bW0 m c t) (0 : Fin 1) 120 (by omega) = bias (aW0 m c) b 120 (by omega) := funext fun j => bW0_apply m c t _ j b hb
  have w1 : wts (bW1 m c t) (0 : Fin 1) 256 (by omega) = wts (aW1 m c) b 256 (by omega) := funext fun k => funext fun j => bW1_apply m c t _ j b hb
  have β1 : bias (bW1 m c t) (0 : Fin 1) 256 (by omega) = bias (aW1 m c) b 256 (by omega) := funext fun j => bW1_apply m c t _ j b hb
  have w2 : wts (bW2 m c t) (0 : Fin 1) 256 (by omega) = wts (aW2 m c) b 256 (by omega) := funext fun k => funext fun j => bW2_apply m c t _ j b hb
  have β2 : bias (bW2 m c t) (0 : Fin 1) 256 (by omega) = bias (aW2 m c) b 256 (by omega) := funext fun j => bW2_apply m c t _ j b hb
  have w3 : wts (bW3 m c t) (0 : Fin 1) 256 (by omega) = wts (aW3 m c) b 256 (by omega) := funext fun k => funext fun j => bW3_apply m c t _ j b hb
  have β3 : bias (bW3 m c t) (0 : Fin 1) 256 (by omega) = bias (aW3 m c) b 256 (by omega) := funext fun j => bW3_apply m c t _ j b hb
  have w4 : wts (bW4 m c t) (0 : Fin 1) 256 (by omega) = wts (aW4 m c) b 256 (by omega) := funext fun k => funext fun j => bW4_apply m c t _ j b hb
  have β4 : bias (bW4 m c t) (0 : Fin 1) 256 (by omega) = bias (aW4 m c) b 256 (by omega) := funext fun j => bW4_apply m c t _ j b hb
  have wo : wts (bWo m c t) (0 : Fin 1) 256 (by omega) = wts (aWo m c) b 256 (by omega) := funext fun k => funext fun j => bWo_apply m c t _ j b hb
  have βo : bias (bWo m c t) (0 : Fin 1) 256 (by omega) = bias (aWo m c) b 256 (by omega) := funext fun j => bWo_apply m c t _ j b hb
  rw [e0, e1, w0, β0, w1, β1, w2, β2, w3, β3, w4, β4, wo, βo, Subsingleton.elim z z']

/-- What point t writes back is block t of the network's result array. -/
theorem flushed_eq (c : Dev nD) (t : Fin cfg0.N) :
    (dats m 0 c).flushed 8 t
      = ((cfg0.win 8).blk t).view.read (Elt Ideal) (G (aX m c) (aW0 m c) (aW1 m c) (aW2 m c) (aW3 m c) (aW4 m c) (aWo m c) (aR m c)) := by
  rw [flushed8]
  funext y
  obtain ⟨u, p, z, rfl⟩ : ∃ (u : Fin 1) (p : Fin 2048) (z : Fin 1), y = ix3 u p z := ⟨y 0, y 1, y 2, eq_ix3 y⟩
  obtain rfl : u = 0 := Subsingleton.elim _ _
  have hf := idx_facts t
  show out0_8 (bX m c t) (bF m c t) (bW0 m c t) (bW1 m c t) (bW2 m c t) (bW3 m c t) (bW4 m c t) (bWo m c t) (ix3 (0 : Fin 1) p z)
    = G (aX m c) (aW0 m c) (aW1 m c) (aW2 m c) (aW3 m c) (aW4 m c) (aWo m c) (aR m c) (((cfg0.win 8).blk t).view.emb (ix3 (0 : Fin 1) p z))
  exact point_at m c t p z _ _ _
    (by show win0_8.index t (0 : Fin 3) * 1 + 1 * 0 = win0_8.index t (0 : Fin 3); omega)
    (by show win0_8.index t (1 : Fin 3) * 2048 + 1 * p.val = win0_8.index t (1 : Fin 3) * 2048 + p.val; omega)

/-! ## The written blocks tile the result array -/

/-- An index of the result array is in point t's block iff each coordinate is in the block's range on its axis. -/
theorem mem_blk (t : Fin cfg0.N) (i : S16x16384x1.Idx) :
    i ∈ ((cfg0.win 8).blk t).view.set ↔ ∀ a : Fin 3, win0_8.index t a * S1x2048x1.size a ≤ (i a).val ∧ (i a).val < win0_8.index t a * S1x2048x1.size a + S1x2048x1.size a := by
  show i ∈ ((View.whole main_v3).slice (win0_8.rect t)).set ↔ _
  rw [View.set_slice_whole, Rect.mem_set_unit]
  exact Iff.rfl

/-- Every index of the result array is in some point's block: the point of its batch and of its row's tile. -/
theorem covered (i : S16x16384x1.Idx) :
    ∃ t : Fin cfg0.N, (cfg0.win 8).flush t = true ∧ i ∈ ((cfg0.win 8).blk t).view.set := by
  have hi0 : (i 0).val < 16 := (i 0).isLt
  have hi1 : (i 1).val < 16384 := (i 1).isLt
  have hi2 : (i 2).val < 1 := (i 2).isLt
  obtain ⟨t, ht⟩ := idx_onto ⟨(i 0).val, hi0⟩ ⟨(i 1).val / 2048, by omega⟩
  have q0 : win0_8.index t (0 : Fin 3) = (i 0).val := congrFun ht 0
  have q1 : win0_8.index t (1 : Fin 3) = (i 1).val / 2048 := congrFun ht 1
  have q2 : win0_8.index t (2 : Fin 3) = 0 := congrFun ht 2
  refine ⟨t, flush0_8 t, ?_⟩
  rw [mem_blk]
  intro a
  match a with
  | ⟨0, _⟩ =>
    show win0_8.index t (0 : Fin 3) * 1 ≤ (i 0).val ∧ (i 0).val < win0_8.index t (0 : Fin 3) * 1 + 1
    omega
  | ⟨1, _⟩ =>
    show win0_8.index t (1 : Fin 3) * 2048 ≤ (i 1).val ∧ (i 1).val < win0_8.index t (1 : Fin 3) * 2048 + 2048
    omega
  | ⟨2, _⟩ =>
    show win0_8.index t (2 : Fin 3) * 1 ≤ (i 2).val ∧ (i 2).val < win0_8.index t (2 : Fin 3) * 1 + 1
    omega

/-- So the result array ends holding the network of the argument arrays. -/
theorem final (c : Dev nD) :
    (dats m 0 c).arrAt 8 cfg0.N = G (aX m c) (aW0 m c) (aW1 m c) (aW2 m c) (aW3 m c) (aW4 m c) (aWo m c) (aR m c) :=
  (dats m 0 c).arrAt_eq_of_cover 8 _ (fun t _ => flushed_eq m c t) covered

/-- The kernel's run, read: the result array at the network of the arguments, the arguments unchanged. -/
theorem run : θ_run defs (onTc (τ := τ) (main (F := Ideal))) ⟨m, fun _ => 0, ρ⟩ fun r => ∀ c : Dev nD,
      r.2.mem ((c : Thread nD τ).loc main_v3) = G (aX m c) (aW0 m c) (aW1 m c) (aW2 m c) (aW3 m c) (aW4 m c) (aWo m c) (aR m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Whole

end
-- ==== Proof.ReferenceStages.lean ====
/-
  The reference's result array is the network, entry by entry.

  The reference computes, for the whole batch at once, the phases as a contraction over the three coordinates, their sines
  beside their cosines along the last axis, then per layer a batched contraction over the feature axis plus the spread bias
  row (the slice [K, K+1) of the weight array's middle axis), each but the last followed by the larger-of with the spread zero.
  Read at (b, n, j), each stage depends on the stage before at (b, n, ·) only, and is the network's stage at that point.
  The sums are the same sums term for term: the contraction over three coordinates is spelt out in index order.
-/
import proofs.«157992_j31671088840755_1_alg».proof.Proof.Gen.ReferenceIdeal.Read
import proofs.«157992_j31671088840755_1_alg».proof.Proof.Network

noncomputable section

open scoped BigOperators
open Idealize.ShloMosaic Idealize.ShloMosaic.ValueIdx
open Cert.ReferenceIdeal Cert.ReferenceIdeal.Gen Cert.ReferenceIdeal.Read Cert.Nerf

namespace Cert.ReferenceIdeal.Stages

variable (x0 : (⟨S16x16384x3, .f32⟩ : BufTy).Contents (Elt Ideal)) (x1 : (⟨S16x121x256, .f32⟩ : BufTy).Contents (Elt Ideal))
  (x2 x3 x4 x5 : (⟨S16x257x256, .f32⟩ : BufTy).Contents (Elt Ideal)) (x6 : (⟨S16x257x1, .f32⟩ : BufTy).Contents (Elt Ideal))
  (x7 : (⟨S60x3, .f32⟩ : BufTy).Contents (Elt Ideal))

/-- The point (b, n) of the batch, as the network takes it. -/
abbrev pt (b : Fin 16) (n : Fin 16384) : Fin 3 → EReal := fun d => x0 (ix3 b n d)

/-- The phases: the contraction over the three coordinates, in index order. -/
theorem phase_at (b : Fin 16) (n : Fin 16384) (f : Fin 60) :
    val_main_v2 (F := Ideal) x0 x7 (ix3 b n f) = phase (pt x0 b n) (freqs x7) f := by
  rw [val_main_v2_apply, Fin.sum_univ_three]
  have hl : ∀ k : Fin 3, lidx_main_v2 (ix3 b n f) k = ix3 b n k := fun k => funext fun a => Fin.ext (by
    match a with
    | ⟨0, _⟩ => rfl
    | ⟨1, _⟩ => rfl
    | ⟨2, _⟩ => rfl)
  have hr : ∀ k : Fin 3, ridx_main_v2 (ix3 b n f) k = ix2 f k := fun k => funext fun a => Fin.ext (by
    match a with
    | ⟨0, _⟩ => rfl
    | ⟨1, _⟩ => rfl)
  simp only [hl, hr, val_main_v1_apply, val_main_v0_apply, val_main_cst_apply]
  rfl

/-- The encoding: the sines beside the cosines along the last axis. -/
theorem enc_at (b : Fin 16) (n : Fin 16384) (j : Fin 120) :
    val_main_v5 (F := Ideal) x0 x7 (ix3 b n j) = enc (pt x0 b n) (freqs x7) j := by
  unfold val_main_v5 enc
  split
  · rename_i hj
    rw [concatenate_pair_apply_left 2 (val_main_v3 (F := Ideal) x0 x7) (val_main_v4 (F := Ideal) x0 x7)
      concatenates_S16x16384x60_S16x16384x60_S16x16384x120_d2 (ix3 b n j) rfl (ix3 b n (⟨j.val, hj⟩ : Fin 60)) (fun a => match a with
      | ⟨0, _⟩ => rfl
      | ⟨1, _⟩ => rfl
      | ⟨2, _⟩ => rfl)]
    rw [val_main_v3_apply, phase_at]
    rfl
  · rename_i hj
    rw [concatenate_pair_apply_right 2 (val_main_v3 (F := Ideal) x0 x7) (val_main_v4 (F := Ideal) x0 x7)
      concatenates_S16x16384x60_S16x16384x60_S16x16384x120_d2 (ix3 b n j) rfl rfl (ix3 b n (⟨j.val - 60, by omega⟩ : Fin 60))
      (fun a ha => match a, ha with
        | ⟨0, _⟩, _ => rfl
        | ⟨1, _⟩, _ => rfl
        | ⟨2, _⟩, ha => absurd rfl ha)
      (by show j.val - 60 + 60 = j.val; omega)]
    rw [val_main_v4_apply, phase_at]
    rfl

/-- The first layer: the batched contraction over the 120 features plus the spread bias row, then the larger-of with zero. -/
theorem layer1_at (b : Fin 16) (n : Fin 16384) (j : Fin 256) :
    val_main_v11 (F := Ideal) x0 x1 x7 (ix3 b n j) = hidden (enc (pt x0 b n) (freqs x7)) (wts x1 b 120 (by omega)) (bias x1 b 120 (by omega)) j := by
  rw [val_main_v11_apply, val_main_v10_apply, val_main_v7_apply, val_main_v9_apply, val_main_v8_apply,
    val_main_call0_v0_apply, val_main_call0_cst_apply]
  have hb : idx_main_v8 (idx_main_v9 (ix3 b n j)) = ix3 b (⟨120, by omega⟩ : Fin 121) j := funext fun a => Fin.ext (by
    match a with
    | ⟨0, _⟩ => rfl
    | ⟨1, _⟩ => rfl
    | ⟨2, _⟩ => rfl)
  rw [hb]
  refine congrArg₂ max (congrArg₂ (· + ·) (Finset.sum_congr rfl fun k _ => ?_) rfl) rfl
  have hl : lidx_main_v7 (ix3 b n j) k = ix3 b n k := funext fun a => Fin.ext (by
    match a with
    | ⟨0, _⟩ => rfl
    | ⟨1, _⟩ => rfl
    | ⟨2, _⟩ => rfl)
  have hr : idx_main_v6 (ridx_main_v7 (ix3 b n j) k) = ix3 b (⟨k.val, by omega⟩ : Fin 121) j := funext fun a => Fin.ext (by
    match a with
    | ⟨0, _⟩ => rfl
    | ⟨1, _⟩ => rfl
    | ⟨2, _⟩ => rfl)
  rw [hl, val_main_v6_apply, hr, enc_at]
  rfl

/-- The second layer: the batched contraction over the 256 features plus the spread bias row, then the larger-of with zero. -/
theorem layer2_at (b : Fin 16) (n : Fin 16384) (j : Fin 256) :
    val_main_v17 (F := Ideal) x0 x1 x2 x7 (ix3 b n j)
      = hidden (hidden (enc (pt x0 b n) (freqs x7)) (wts x1 b 120 (by omega)) (bias x1 b 120 (by omega))) (wts x2 b 256 (by omega)) (bias x2 b 256 (by omega)) j := by
  rw [val_main_v17_apply, val_main_v16_apply, val_main_v13_apply, val_main_v15_apply, val_main_v14_apply,
    val_main_call1_v0_apply, val_main_call1_cst_apply]
  have hb : idx_main_v14 (idx_main_v15 (ix3 b n j)) = ix3 b (⟨256, by omega⟩ : Fin 257) j := funext fun a => Fin.ext (by
    match a with
    | ⟨0, _⟩ => rfl
    | ⟨1, _⟩ => rfl
    | ⟨2, _⟩ => rfl)
  rw [hb]
  refine congrArg₂ max (congrArg₂ (· + ·) (Finset.sum_congr rfl fun k _ => ?_) rfl) rfl
  have hl : lidx_main_v13 (ix3 b n j) k = ix3 b n k := funext fun a => Fin.ext (by
    match a with
    | ⟨0, _⟩ => rfl
    | ⟨1, _⟩ => rfl
    | ⟨2, _⟩ => rfl)
  have hr : idx_main_v12 (ridx_main_v13 (ix3 b n j) k) = ix3 b (⟨k.val, by omega⟩ : Fin 257) j := funext fun a => Fin.ext (by
    match a with
    | ⟨0, _⟩ => rfl
    | ⟨1, _⟩ => rfl
    | ⟨2, _⟩ => rfl)
  rw [hl, val_main_v12_apply, hr, layer1_at]
  rfl

/-- The third layer: the batched contraction over the 256 features plus the spread bias row, then the larger-of with zero. -/
theorem layer3_at (b : Fin 16) (n : Fin 16384) (j : Fin 256) :
    val_main_v23 (F := Ideal) x0 x1 x2 x3 x7 (ix3 b n j)
      = hidden (hidden (hidden (enc (pt x0 b n) (freqs x7)) (wts x1 b 120 (by omega)) (bias x1 b 120 (by omega))) (wts x2 b 256 (by omega)) (bias x2 b 256 (by omega))) (wts x3 b 256 (by omega)) (bias x3 b 256 (by omega)) j := by
  rw [val_main_v23_apply, val_main_v22_apply, val_main_v19_apply, val_main_v21_apply, val_main_v20_apply,
    val_main_call2_v0_apply, val_main_call2_cst_apply]
  have hb : idx_main_v20 (idx_main_v21 (ix3 b n j)) = ix3 b (⟨256, by omega⟩ : Fin 257) j := funext fun a => Fin.ext (by
    match a with
    | ⟨0, _⟩ => rfl
    | ⟨1, _⟩ => rfl
    | ⟨2, _⟩ => rfl)
  rw [hb]
  refine congrArg₂ max (congrArg₂ (· + ·) (Finset.sum_congr rfl fun k _ => ?_) rfl) rfl
  have hl : lidx_main_v19 (ix3 b n j) k = ix3 b n k := funext fun a => Fin.ext (by
    match a with
    | ⟨0, _⟩ => rfl
    | ⟨1, _⟩ => rfl
    | ⟨2, _⟩ => rfl)
  have hr : idx_main_v18 (ridx_main_v19 (ix3 b n j) k) = ix3 b (⟨k.val, by omega⟩ : Fin 257) j := funext fun a => Fin.ext (by
    match a with
    | ⟨0, _⟩ => rfl
    | ⟨1, _⟩ => rfl
    | ⟨2, _⟩ => rfl)
  rw [hl, val_main_v18_apply, hr, layer2_at]
  rfl

/-- The fourth layer: the batched contraction over the 256 features plus the spread bias row, then the larger-of with zero. -/
theorem layer4_at (b : Fin 16) (n : Fin 16384) (j : Fin 256) :
    val_main_v29 (F := Ideal) x0 x1 x2 x3 x4 x7 (ix3 b n j)
      = hidden (hidden (hidden (hidden (enc (pt x0 b n) (freqs x7)) (wts x1 b 120 (by omega)) (bias x1 b 120 (by omega))) (wts x2 b 256 (by omega)) (bias x2 b 256 (by omega))) (wts x3 b 256 (by omega)) (bias x3 b 256 (by omega))) (wts x4 b 256 (by omega)) (bias x4 b 256 (by omega)) j := by
  rw [val_main_v29_apply, val_main_v28_apply, val_main_v25_apply, val_main_v27_apply, val_main_v26_apply,
    val_main_call3_v0_apply, val_main_call3_cst_apply]
  have hb : idx_main_v26 (idx_main_v27 (ix3 b n j)) = ix3 b (⟨256, by omega⟩ : Fin 257) j := funext fun a => Fin.ext (by
    match a with
    | ⟨0, _⟩ => rfl
    | ⟨1, _⟩ => rfl
    | ⟨2, _⟩ => rfl)
  rw [hb]
  refine congrArg₂ max (congrArg₂ (· + ·) (Finset.sum_congr rfl fun k _ => ?_) rfl) rfl
  have hl : lidx_main_v25 (ix3 b n j) k = ix3 b n k := funext fun a => Fin.ext (by
    match a with
    | ⟨0, _⟩ => rfl
    | ⟨1, _⟩ => rfl
    | ⟨2, _⟩ => rfl)
  have hr : idx_main_v24 (ridx_main_v25 (ix3 b n j) k) = ix3 b (⟨k.val, by omega⟩ : Fin 257) j := funext fun a => Fin.ext (by
    match a with
    | ⟨0, _⟩ => rfl
    | ⟨1, _⟩ => rfl
    | ⟨2, _⟩ => rfl)
  rw [hl, val_main_v24_apply, hr, layer3_at]
  rfl

/-- The fifth layer: the batched contraction over the 256 features plus the spread bias row, then the larger-of with zero. -/
theorem layer5_at (b : Fin 16) (n : Fin 16384) (j : Fin 256) :
    val_main_v35 (F := Ideal) x0 x1 x2 x3 x4 x5 x7 (ix3 b n j)
      = hidden (hidden (hidden (hidden (hidden (enc (pt x0 b n) (freqs x7)) (wts x1 b 120 (by omega)) (bias x1 b 120 (by omega))) (wts x2 b 256 (by omega)) (bias x2 b 256 (by omega))) (wts x3 b 256 (by omega)) (bias x3 b 256 (by omega))) (wts x4 b 256 (by omega)) (bias x4 b 256 (by omega))) (wts x5 b 256 (by omega)) (bias x5 b 256 (by omega)) j := by
  rw [val_main_v35_apply, val_main_v34_apply, val_main_v31_apply, val_main_v33_apply, val_main_v32_apply,
    val_main_call4_v0_apply, val_main_call4_cst_apply]
  have hb : idx_main_v32 (idx_main_v33 (ix3 b n j)) = ix3 b (⟨256, by omega⟩ : Fin 257) j := funext fun a => Fin.ext (by
    match a with
    | ⟨0, _⟩ => rfl
    | ⟨1, _⟩ => rfl
    | ⟨2, _⟩ => rfl)
  rw [hb]
  refine congrArg₂ max (congrArg₂ (· + ·) (Finset.sum_congr rfl fun k _ => ?_) rfl) rfl
  have hl : lidx_main_v31 (ix3 b n j) k = ix3 b n k := funext fun a => Fin.ext (by
    match a with
    | ⟨0, _⟩ => rfl
    | ⟨1, _⟩ => rfl
    | ⟨2, _⟩ => rfl)
  have hr : idx_main_v30 (ridx_main_v31 (ix3 b n j) k) = ix3 b (⟨k.val, by omega⟩ : Fin 257) j := funext fun a => Fin.ext (by
    match a with
    | ⟨0, _⟩ => rfl
    | ⟨1, _⟩ => rfl
    | ⟨2, _⟩ => rfl)
  rw [hl, val_main_v30_apply, hr, layer4_at]
  rfl

/-- The output layer: the batched contraction over the 256 features plus the spread bias entry; the whole result array is
    the network, entry by entry. -/
theorem result_at (b : Fin 16) (n : Fin 16384) (z : Fin 1) :
    val_main_v40 (F := Ideal) x0 x1 x2 x3 x4 x5 x6 x7 (ix3 b n z) = at_ x0 x1 x2 x3 x4 x5 x6 x7 b n z := by
  rw [val_main_v40_apply, val_main_v37_apply, val_main_v39_apply, val_main_v38_apply]
  have hb : idx_main_v38 (idx_main_v39 (ix3 b n z)) = ix3 b (⟨256, by omega⟩ : Fin 257) z := funext fun a => Fin.ext (by
    match a with
    | ⟨0, _⟩ => rfl
    | ⟨1, _⟩ => rfl
    | ⟨2, _⟩ =>
      show 0 = z.val
      omega)
  rw [hb]
  unfold at_ net affine
  refine congrArg₂ (· + ·) (Finset.sum_congr rfl fun k _ => ?_) rfl
  have hl : lidx_main_v37 (ix3 b n z) k = ix3 b n k := funext fun a => Fin.ext (by
    match a with
    | ⟨0, _⟩ => rfl
    | ⟨1, _⟩ => rfl
    | ⟨2, _⟩ => rfl)
  have hr : idx_main_v36 (ridx_main_v37 (ix3 b n z) k) = ix3 b (⟨k.val, by omega⟩ : Fin 257) z := funext fun a => Fin.ext (by
    match a with
    | ⟨0, _⟩ => rfl
    | ⟨1, _⟩ => rfl
    | ⟨2, _⟩ => rfl)
  rw [hl, val_main_v36_apply, hr, layer5_at]
  rfl

/-- The reference's result array is the network's. -/
theorem result_eq : val_main_v40 (F := Ideal) x0 x1 x2 x3 x4 x5 x6 x7 = G x0 x1 x2 x3 x4 x5 x6 x7 := by
  funext i
  obtain ⟨b, n, z, rfl⟩ : ∃ (b : Fin 16) (n : Fin 16384) (z : Fin 1), i = ix3 b n z := ⟨i 0, i 1, i 2, eq_ix3 i⟩
  rw [result_at, G_ix3]

end Cert.ReferenceIdeal.Stages

end
-- ==== Proof.lean ====
/-
  A fused coordinate network on the TensorCore against its jnp reference, equal on the extended reals.

  Both programs take a batch of 16 point clouds of 16384 points in three coordinates, a [60, 3] frequency table, and per batch
  six stacked weight-and-bias arrays (the last row of each is the bias). Both scale the table by 20, form sixty phases per
  point as the inner product with the scaled table, encode a point as the sixty sines beside the sixty cosines, pass the 120
  features through five dense layers each followed by the larger-of with zero, and end with a dense layer of one output.

  The kernel does this per grid point on a block of 2048 points of one batch: the phases by three spread-and-multiply steps
  added left to right, each dense layer as a matrix product into zero (operands narrowed to bf16, an identity on the extended
  reals) plus the spread bias row. The reference does it for the whole batch with contractions. Read at one entry (b, n, 0) both
  are the same expression: the same products, summed over the same index sets, with the same bias and the same larger-of. No
  law beyond that reading is used, so the finiteness of the inputs is never opened.

  The kernel's frames are the generated ones; the reference's frame is its generated run with the result dropped; no
  operation of the kernel was rewritten in reading it on the extended reals, so the idealization conjunct is trivial.
-/
import proofs.«157992_j31671088840755_1_alg».proof.Defs
import proofs.«157992_j31671088840755_1_alg».proof.Proof.Gen.Kernel
import proofs.«157992_j31671088840755_1_alg».proof.Proof.Gen.Kernel.Skeleton
import proofs.«157992_j31671088840755_1_alg».proof.Proof.Gen.Kernel.Launch
import proofs.«157992_j31671088840755_1_alg».proof.Proof.Gen.Kernel.Points
import proofs.«157992_j31671088840755_1_alg».proof.Proof.Gen.Kernel.Frame
import proofs.«157992_j31671088840755_1_alg».proof.Proof.Gen.KernelIdeal
import proofs.«157992_j31671088840755_1_alg».proof.Proof.Gen.KernelIdeal.Skeleton
import proofs.«157992_j31671088840755_1_alg».proof.Proof.Gen.KernelIdeal.Launch
import proofs.«157992_j31671088840755_1_alg».proof.Proof.Gen.KernelIdeal.Points
import proofs.«157992_j31671088840755_1_alg».proof.Proof.Gen.KernelIdeal.Frame
import proofs.«157992_j31671088840755_1_alg».proof.Proof.Gen.KernelIdeal.Value
import proofs.«157992_j31671088840755_1_alg».proof.Proof.Gen.ReferenceIdeal
import proofs.«157992_j31671088840755_1_alg».proof.Proof.Gen.ReferenceIdeal.Run
import proofs.«157992_j31671088840755_1_alg».proof.Proof.Gen.ReferenceIdeal.Read
import proofs.«157992_j31671088840755_1_alg».proof.Proof.Gen.Pre_finite_inputs
import proofs.«157992_j31671088840755_1_alg».proof.Proof.KernelArray
import proofs.«157992_j31671088840755_1_alg».proof.Proof.ReferenceStages
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its generated run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array ends at the network of its arguments and the
    reference's at the network of its own: the same array. -/
theorem algebraic : Cert.algebraic_KernelIdeal_ReferenceIdeal := by
  intro m ρ m' ρ' _ hagree
  refine ⟨fun c => Cert.Nerf.G (Cert.KernelIdeal.Whole.aX m c) (Cert.KernelIdeal.Whole.aW0 m c) (Cert.KernelIdeal.Whole.aW1 m c)
    (Cert.KernelIdeal.Whole.aW2 m c) (Cert.KernelIdeal.Whole.aW3 m c) (Cert.KernelIdeal.Whole.aW4 m c) (Cert.KernelIdeal.Whole.aWo m c)
    (Cert.KernelIdeal.Whole.aR m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.ReferenceIdeal.Stages.result_eq]
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
